-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x32 : Shape := ⟨2, ![64, 32]⟩
abbrev S64x256x128 : Shape := ⟨3, ![64, 256, 128]⟩
abbrev S64x256 : Shape := ⟨2, ![64, 256]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x256x128 : S_.BroadcastsInDim S64x256x128 (![] : Fin 0 → Fin S64x256x128.rank)
  reducesTo_S64x256x128_S_d0_1_2 : S64x256x128.ReducesTo [0, 1, 2] S_
  bcast_S_S64x32 : S_.BroadcastsInDim S64x32 (![] : Fin 0 → Fin S64x32.rank)
  reducesTo_S64x32_S_d0_1 : S64x32.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg3 : IVec S64x256 32) (main_v15 : IVec S_ 1) (main_c_5 : IVec S_ 32) : IVec S_ 1 :=
  let main_v16 : IVec S64x256 32 := broadcastInDim S64x256 ![] bcast_S_S64x256 main_c_5
  let main_v17 : IVec S64x256 1 := cmpi .eq main_arg3 main_v16
  let main_c_6 : IVec S_ 32 := constantI S_ 32 1#32
  let main_v18 : IVec S64x256 32 := broadcastInDim S64x256 ![] bcast_S_S64x256 main_c_6
  let main_v19 : IVec S64x256 1 := cmpi .eq main_arg3 main_v18
  let main_v20 : IVec S64x256 1 := ori main_v17 main_v19
  let main_c_7 : IVec S_ 1 := constantI S_ 1 1#1
  let main_v21 : IVec S_ 1 := (fun x v => Host.reduce IntOp.andi x v reducesTo_S64x256_S_d0_1 h_S_) main_v20 main_c_7
  let main_v22 : IVec S_ 1 := andi main_v15 main_v21
  main_v22

def fn {F : FTy → Type} [FloatOps F] (main_arg0 : FVec F S64x32x128 .f32) (main_arg1 : IVec S64x32 32) (main_arg2 : FVec F S64x256x128 .f32) (main_arg3 : IVec S64x256 32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x256x128 .f32 := Host.absf main_arg2
  let main_cst_0 : FVec F S_ .f32 := constant S_ .f32 0x7F800000#32
  let main_v5 : FVec F S64x256x128 .f32 := broadcastInDim S64x256x128 ![] bcast_S_S64x256x128 main_cst_0
  let main_v6 : IVec S64x256x128 1 := cmpf .olt main_v4 main_v5
  let main_c_1 : IVec S_ 1 := constantI S_ 1 1#1
  let main_v7 : IVec S_ 1 := (fun x v => Host.reduce IntOp.andi x v reducesTo_S64x256x128_S_d0_1_2 h_S_) main_v6 main_c_1
  let main_v8 : IVec S_ 1 := andi main_v3 main_v7
  let main_c_2 : IVec S_ 32 := constantI S_ 32 0#32
  let main_v9 : IVec S64x32 32 := broadcastInDim S64x32 ![] bcast_S_S64x32 main_c_2
  let main_v10 : IVec S64x32 1 := cmpi .eq main_arg1 main_v9
  let main_c_3 : IVec S_ 32 := constantI S_ 32 1#32
  let main_v11 : IVec S64x32 32 := broadcastInDim S64x32 ![] bcast_S_S64x32 main_c_3
  let main_v12 : IVec S64x32 1 := cmpi .eq main_arg1 main_v11
  let main_v13 : IVec S64x32 1 := ori main_v10 main_v12
  let main_c_4 : IVec S_ 1 := constantI S_ 1 1#1
  let main_v14 : IVec S_ 1 := (fun x v => Host.reduce IntOp.andi x v reducesTo_S64x32_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S64x32x128 : Shape := ⟨3, ![64, 32, 128]⟩
abbrev S64x32 : Shape := ⟨2, ![64, 32]⟩
abbrev S64x256x128 : Shape := ⟨3, ![64, 256, 128]⟩
abbrev S64x256 : Shape := ⟨2, ![64, 256]⟩
abbrev S_ : Shape := ⟨0, ![]⟩
abbrev S64x256x1 : Shape := ⟨3, ![64, 256, 1]⟩
abbrev S64x64 : Shape := ⟨2, ![64, 64]⟩
abbrev S8x32x128 : Shape := ⟨3, ![8, 32, 128]⟩
abbrev S8x32 : Shape := ⟨2, ![8, 32]⟩
abbrev S8x256 : Shape := ⟨2, ![8, 256]⟩
abbrev S8x64 : Shape := ⟨2, ![8, 64]⟩
abbrev S64x8 : Shape := ⟨2, ![64, 8]⟩
abbrev S8x32x1 : Shape := ⟨3, ![8, 32, 1]⟩
abbrev S256x128 : Shape := ⟨2, ![256, 128]⟩
abbrev S32x256x128 : Shape := ⟨3, ![32, 256, 128]⟩
abbrev S8192x128 : Shape := ⟨2, ![8192, 128]⟩
abbrev S128x8192 : Shape := ⟨2, ![128, 8192]⟩
abbrev S256x8192 : Shape := ⟨2, ![256, 8192]⟩
abbrev S8x32x32x256 : Shape := ⟨4, ![8, 32, 32, 256]⟩
abbrev S8x32x1x1 : Shape := ⟨4, ![8, 32, 1, 1]⟩
abbrev S8x1x1x256 : Shape := ⟨4, ![8, 1, 1, 256]⟩
abbrev S8x32x32 : Shape := ⟨3, ![8, 32, 32]⟩
abbrev S8x32x32x1 : Shape := ⟨4, ![8, 32, 32, 1]⟩
abbrev S8x1x32x1 : Shape := ⟨4, ![8, 1, 32, 1]⟩
abbrev S8x32x256 : Shape := ⟨3, ![8, 32, 256]⟩
abbrev S8x1x32x256 : Shape := ⟨4, ![8, 1, 32, 256]⟩
abbrev S8x1x32 : Shape := ⟨3, ![8, 1, 32]⟩
abbrev S32x8 : Shape := ⟨2, ![32, 8]⟩

abbrev nBuf : Space → Nat
  | .hbm => 21
  | .vmem => 10
  | .smem => 0
  | _ => 0

abbrev bufTy : (tb : Table) → Fin (tcTables nBuf tb) → BufTy
  | .hbm, ⟨0, _⟩ => ⟨S64x32x128, .f32⟩
  | .hbm, ⟨1, _⟩ => ⟨S64x32, .i32⟩
  | .hbm, ⟨2, _⟩ => ⟨S64x256x128, .f32⟩
  | .hbm, ⟨3, _⟩ => ⟨S64x256, .i32⟩
  | .hbm, ⟨4, _⟩ => ⟨S64x32, .f32⟩
  | .hbm, ⟨5, _⟩ => ⟨S64x256, .f32⟩
  | .hbm, ⟨6, _⟩ => ⟨S64x256x128, .f32⟩
  | .hbm, ⟨7, _⟩ => ⟨S_, .f32⟩
  | .hbm, ⟨8, _⟩ => ⟨S64x256, .f32⟩
  | .hbm, ⟨9, _⟩ => ⟨S64x256x1, .f32⟩
  | .hbm, ⟨10, _⟩ => ⟨S64x256x1, .f32⟩
  | .hbm, ⟨11, _⟩ => ⟨S_, .f32⟩
  | .hbm, ⟨12, _⟩ => ⟨S64x256x1, .f32⟩
  | .hbm, ⟨13, _⟩ => ⟨S64x256x1, .f32⟩
  | .hbm, ⟨14, _⟩ => ⟨S64x256x128, .f32⟩
  | .hbm, ⟨15, _⟩ => ⟨S64x256x128, .f32⟩
  | .hbm, ⟨16, _⟩ => ⟨S64x256x1, .f32⟩
  | .hbm, ⟨17, _⟩ => ⟨S64x256x128, .f32⟩
  | .hbm, ⟨18, _⟩ => ⟨S64x256x128, .f32⟩
  | .hbm, ⟨19, _⟩ => ⟨S64x256x128, .bf16⟩
  | .hbm, ⟨20, _⟩ => ⟨S64x64, .f32⟩
  | .local _ .vmem, ⟨0, _⟩ => ⟨S8x32x128, .f32⟩
  | .local _ .vmem, ⟨1, _⟩ => ⟨S8x32x128, .f32⟩
  | .local _ .vmem, ⟨2, _⟩ => ⟨S8x32, .f32⟩
  | .local _ .vmem, ⟨3, _⟩ => ⟨S8x32, .f32⟩
  | .local _ .vmem, ⟨4, _⟩ => ⟨S64x256x128, .bf16⟩
  | .local _ .vmem, ⟨5, _⟩ => ⟨S8x256, .f32⟩
  | .local _ .vmem, ⟨6, _⟩ => ⟨S8x256, .f32⟩
  | .local _ .vmem, ⟨7, _⟩ => ⟨S8x64, .f32⟩
  | .local _ .vmem, ⟨8, _⟩ => ⟨S8x64, .f32⟩
  | .local _ .vmem, ⟨9, _⟩ => ⟨S64x8, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v26 : BitVec 32 := Scalar.addi c0_i32 c2_i32
  let c1_i32 : BitVec 32 := 1#32
  ⟨c0_i32, v26, c1_i32⟩
def k0_mult1 (k0_t1 : Fin k0_t1_loop.trips) : BitVec 32 :=
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v30 : BitVec 32 := Scalar.muli arg7 c1_i32_16
  let v31 : BitVec 32 := Scalar.addi c0_i32_17 v30
  let c32_i32 : BitVec 32 := 32#32
  let v32 : BitVec 32 := Scalar.muli v31 c32_i32
  v32
def k0_off1 (k0_t1 : Fin k0_t1_loop.trips) : Fin 3 → Nat :=
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v30 : BitVec 32 := Scalar.muli arg7 c1_i32_16
  let v31 : BitVec 32 := Scalar.addi c0_i32_17 v30
  let c32_i32 : BitVec 32 := 32#32
  let v32 : BitVec 32 := Scalar.muli v31 c32_i32
  let v33 : BitVec 32 := v32
  let v34 : Index := Scalar.indexCast v33
  let c0_18 : Index := 0#32
  let c0_19 : Index := 0#32
  ![v34.toNat, 0, 0]
def k0_off2 (k0_t1 : Fin k0_t1_loop.trips) : Fin 2 → Nat :=
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v30 : BitVec 32 := Scalar.muli arg7 c1_i32_16
  let v31 : BitVec 32 := Scalar.addi c0_i32_17 v30
  let c32_i32 : BitVec 32 := 32#32
  let v32 : BitVec 32 := Scalar.muli v31 c32_i32
  let v33 : BitVec 32 := v32
  let v87 : Index := Scalar.indexCast v33
  let c0_36 : Index := 0#32
  ![v87.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64x256x128_S64x256_d2 : S64x256x128.ReducesTo [2] S64x256
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x128_0_1_2 : S64x256x1.BroadcastsInDim S64x256x128 (![0, 1, 2] : Fin 3 → Fin S64x256x128.rank)
  bitsLt_bf16_f32 : FTy.bits .bf16 < FTy.bits .f32
  inb_S8x32x128_S8x32x128_0_0_0 : ∀ a, (![0, 0, 0] : Fin 3 → Nat) a + S8x32x128.size a ≤ S8x32x128.size a
  h_S8x32x128 : 0 < S8x32x128.numel
  inb_S8x32_S8x32_0_0 : ∀ a, (![0, 0] : Fin 2 → Nat) a + S8x32.size a ≤ S8x32.size a
  h_S8x32 : 0 < S8x32.numel
  shapeCasts_S8x32_S8x32 : S8x32.ShapeCasts S8x32
  reduces_S8x32x128_S8x32 : S8x32x128.Reduces [2] S8x32
  shapeCasts_S8x32_S8x32x1 : S8x32.ShapeCasts S8x32x1
  broadcasts_S8x32x1_S8x32x128 : S8x32x1.Broadcasts S8x32x128
  shapeCasts_S8x32x128_S256x128 : S8x32x128.ShapeCasts S256x128
  inb_S8x256_S8x256_0_0 : ∀ a, (![0, 0] : Fin 2 → Nat) a + S8x256.size a ≤ S8x256.size a
  h_S8x256 : 0 < S8x256.numel
  shapeCasts_S8x256_S8x256 : S8x256.ShapeCasts S8x256
  h_S32x256x128 : 0 < S32x256x128.numel
  shapeCasts_S32x256x128_S32x256x128 : S32x256x128.ShapeCasts S32x256x128
  shapeCasts_S32x256x128_S8192x128 : S32x256x128.ShapeCasts S8192x128
  transposes_S8192x128_p1_0_S128x8192 : S8192x128.Transposes [1, 0] S128x8192
  shapeCasts_S256x8192_S8x32x32x256 : S256x8192.ShapeCasts S8x32x32x256
  shapeCasts_S8x32_S8x32x1x1 : S8x32.ShapeCasts S8x32x1x1
  broadcasts_S8x32x1x1_S8x32x32x256 : S8x32x1x1.Broadcasts S8x32x32x256
  shapeCasts_S8x256_S8x1x1x256 : S8x256.ShapeCasts S8x1x1x256
  broadcasts_S8x1x1x256_S8x32x32x256 : S8x1x1x256.Broadcasts S8x32x32x256
  reduces_S8x32x32x256_S8x32x32 : S8x32x32x256.Reduces [3] S8x32x32
  shapeCasts_S8x32x32_S8x32x32x1 : S8x32x32.ShapeCasts S8x32x32x1
  natLt_1_32 : 1 < 32
  reduces_S8x32x32x1_S8x32x1 : S8x32x32x1.Reduces [1] S8x32x1
  shapeCasts_S8x32x1_S8x1x32x1 : S8x32x1.ShapeCasts S8x1x32x1
  shapeCasts_S8x1x32x1_S8x32 : S8x1x32x1.ShapeCasts S8x32
  reduces_S8x32x32x256_S8x32x256 : S8x32x32x256.Reduces [1] S8x32x256
  shapeCasts_S8x32x256_S8x1x32x256 : S8x32x256.ShapeCasts S8x1x32x256
  reduces_S8x1x32x256_S8x1x32 : S8x1x32x256.Reduces [3] S8x1x32
  shapeCasts_S8x1x32_S8x1x32x1 : S8x1x32.ShapeCasts S8x1x32x1
  transposes_S8x32_p1_0_S32x8 : S8x32.Transposes [1, 0] S32x8
  h_S32x8 : 0 < S32x8.numel
  shapeCasts_S32x8_S32x8 : S32x8.ShapeCasts S32x8
  inb_S64x8_S64x8_0_0 : ∀ a, (![0, 0] : Fin 2 → Nat) a + S64x8.size a ≤ S64x8.size a
  h_S64x8 : 0 < S64x8.numel
  transposes_S64x8_p1_0_S8x64 : S64x8.Transposes [1, 0] S8x64
  inb_S8x64_S8x64_0_0 : ∀ a, (![0, 0] : Fin 2 → Nat) a + S8x64.size a ≤ S8x64.size a
  h_S8x64 : 0 < S8x64.numel
  dot_S256x128_S128x8192_S256x8192_1_0_0_1_n_n_wf : DotDims.WF S256x128 S128x8192 S256x8192 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S32x256x128.size a ≤ S64x256x128.size a
  k0_off2_inb : ∀ k0_t1 : Fin k0_t1_loop.trips, ∀ a, (k0_off2 k0_t1) a + S32x8.size a ≤ S64x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S64x32.size a
  hwx0_1 : ∀ i : grid0.Coords, EltTy.bits .f32 = 32 ∨ (Rect.block (s := S64x32) S8x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256x128.size a ≤ S64x256x128.size a
  hwx0_2 : ∀ i : grid0.Coords, EltTy.bits .bf16 = 32 ∨ (Rect.block (s := S64x256x128) S64x256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S64x256.size a
  hwx0_3 : ∀ i : grid0.Coords, EltTy.bits .f32 = 32 ∨ (Rect.block (s := S64x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S64x64.size a
  hwx0_4 : ∀ i : grid0.Coords, EltTy.bits .f32 = 32 ∨ (Rect.block (s := S64x64) S8x64.size (cc0_transform_4 i) (hinb0_4 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S64x32 : Shape := ⟨2, ![64, 32]⟩
abbrev S64x256x128 : Shape := ⟨3, ![64, 256, 128]⟩
abbrev S64x256 : Shape := ⟨2, ![64, 256]⟩
abbrev S_ : Shape := ⟨0, ![]⟩
abbrev S64x32x1 : Shape := ⟨3, ![64, 32, 1]⟩
abbrev S64x256x1 : Shape := ⟨3, ![64, 256, 1]⟩
abbrev S64x256x64x32 : Shape := ⟨4, ![64, 256, 64, 32]⟩
abbrev S64x64x32x256 : Shape := ⟨4, ![64, 64, 32, 256]⟩
abbrev S64x1x32x1 : Shape := ⟨4, ![64, 1, 32, 1]⟩
abbrev S1x64x256 : Shape := ⟨3, ![1, 64, 256]⟩
abbrev S1x64x1x256 : Shape := ⟨4, ![1, 64, 1, 256]⟩
abbrev S64x1x1x256 : Shape := ⟨4, ![64, 1, 1, 256]⟩
abbrev S64x1x32x256 : Shape := ⟨4, ![64, 1, 32, 256]⟩
abbrev S64x64x32 : Shape := ⟨3, ![64, 64, 32]⟩
abbrev S64x64 : Shape := ⟨2, ![64, 64]⟩
abbrev S64x64x256 : Shape := ⟨3, ![64, 64, 256]⟩

abbrev nBuf : Space → Nat
  | .hbm => 96
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x32, .i32⟩
  | .hbm, ⟨2, _⟩ => ⟨S64x256x128, .f32⟩
  | .hbm, ⟨3, _⟩ => ⟨S64x256, .i32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S64x256x128, .f32⟩
  | .hbm, ⟨15, _⟩ => ⟨S_, .f32⟩
  | .hbm, ⟨16, _⟩ => ⟨S64x256, .f32⟩
  | .hbm, ⟨17, _⟩ => ⟨S64x256x1, .f32⟩
  | .hbm, ⟨18, _⟩ => ⟨S64x256x1, .f32⟩
  | .hbm, ⟨19, _⟩ => ⟨S_, .f32⟩
  | .hbm, ⟨20, _⟩ => ⟨S64x256x1, .f32⟩
  | .hbm, ⟨21, _⟩ => ⟨S64x256x1, .f32⟩
  | .hbm, ⟨22, _⟩ => ⟨S64x256x128, .f32⟩
  | .hbm, ⟨23, _⟩ => ⟨S64x256x128, .f32⟩
  | .hbm, ⟨24, _⟩ => ⟨S64x32, .f32⟩
  | .hbm, ⟨25, _⟩ => ⟨S64x32x1, .f32⟩
  | .hbm, ⟨26, _⟩ => ⟨S64x256, .f32⟩
  | .hbm, ⟨27, _⟩ => ⟨S64x256x1, .f32⟩
  | .hbm, ⟨28, _⟩ => ⟨S64x32x128, .f32⟩
  | .hbm, ⟨29, _⟩ => ⟨S64x32x128, .f32⟩
  | .hbm, ⟨30, _⟩ => ⟨S64x256x128, .f32⟩
  | .hbm, ⟨31, _⟩ => ⟨S64x256x128, .f32⟩
  | .hbm, ⟨32, _⟩ => ⟨S64x256x64x32, .f32⟩
  | .hbm, ⟨33, _⟩ => ⟨S64x64x32x256, .f32⟩
  | .hbm, ⟨34, _⟩ => ⟨S64x1x32x1, .f32⟩
  | .hbm, ⟨35, _⟩ => ⟨S64x256, .f32⟩
  | .hbm, ⟨36, _⟩ => ⟨S1x64x256, .f32⟩
  | .hbm, ⟨37, _⟩ => ⟨S1x64x1x256, .f32⟩
  | .hbm, ⟨38, _⟩ => ⟨S64x1x1x256, .f32⟩
  | .hbm, ⟨39, _⟩ => ⟨S64x1x32x256, .f32⟩
  | .hbm, ⟨40, _⟩ => ⟨S64x1x32x256, .f32⟩
  | .hbm, ⟨41, _⟩ => ⟨S64x1x32x256, .f32⟩
  | .hbm, ⟨42, _⟩ => ⟨S_, .f32⟩
  | .hbm, ⟨43, _⟩ => ⟨S64x1x32x256, .f32⟩
  | .hbm, ⟨44, _⟩ => ⟨S64x1x32x256, .i1⟩
  | .hbm, ⟨45, _⟩ => ⟨S_, .f32⟩
  | .hbm, ⟨46, _⟩ => ⟨S_, .f32⟩
  | .hbm, ⟨47, _⟩ => ⟨S64x64x32x256, .i1⟩
  | .hbm, ⟨48, _⟩ => ⟨S64x64x32x256, .f32⟩
  | .hbm, ⟨49, _⟩ => ⟨S64x64x32x256, .f32⟩
  | .hbm, ⟨50, _⟩ => ⟨S_, .f32⟩
  | .hbm, ⟨51, _⟩ => ⟨S64x64x32, .f32⟩
  | .hbm, ⟨52, _⟩ => ⟨S_, .f32⟩
  | .hbm, ⟨53, _⟩ => ⟨S64x64x32, .f32⟩
  | .hbm, ⟨54, _⟩ => ⟨S64x64x32, .i1⟩
  | .hbm, ⟨55, _⟩ => ⟨S64x64x32, .f32⟩
  | .hbm, ⟨56, _⟩ => ⟨S_, .f32⟩
  | .hbm, ⟨57, _⟩ => ⟨S64x64x32, .f32⟩
  | .hbm, ⟨58, _⟩ => ⟨S64x64x32, .i1⟩
  | .hbm, ⟨59, _⟩ => ⟨S_, .f32⟩
  | .hbm, ⟨60, _⟩ => ⟨S_, .f32⟩
  | .hbm, ⟨61, _⟩ => ⟨S64x64x32, .f32⟩
  | .hbm, ⟨62, _⟩ => ⟨S64x64x32, .f32⟩
  | .hbm, ⟨63, _⟩ => ⟨S_, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S64x64x256, .f32⟩
  | .hbm, ⟨73, _⟩ => ⟨S_, .f32⟩
  | .hbm, ⟨74, _⟩ => ⟨S64x64x256, .f32⟩
  | .hbm, ⟨75, _⟩ => ⟨S64x64x256, .i1⟩
  | .hbm, ⟨76, _⟩ => ⟨S64x64x256, .f32⟩
  | .hbm, ⟨77, _⟩ => ⟨S_, .f32⟩
  | .hbm, ⟨78, _⟩ => ⟨S64x64x256, .f32⟩
  | .hbm, ⟨79, _⟩ => ⟨S64x64x256, .i1⟩
  | .hbm, ⟨80, _⟩ => ⟨S_, .f32⟩
  | .hbm, ⟨81, _⟩ => ⟨S_, .f32⟩
  | .hbm, ⟨82, _⟩ => ⟨S64x64x256, .f32⟩
  | .hbm, ⟨83, _⟩ => ⟨S64x64x256, .f32⟩
  | .hbm, ⟨84, _⟩ => ⟨S_, .f32⟩
  | .hbm, ⟨85, _⟩ => ⟨S64x64, .f32⟩
  | .hbm, ⟨86, _⟩ => ⟨S_, .f32⟩
  | .hbm, ⟨87, _⟩ => ⟨S64x64, .f32⟩
  | .hbm, ⟨88, _⟩ => ⟨S64x64, .f32⟩
  | .hbm, ⟨89, _⟩ => ⟨S_, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S_, .f32⟩
  | .hbm, ⟨94, _⟩ => ⟨S64x64, .f32⟩
  | .hbm, ⟨95, _⟩ => ⟨S64x64, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_call3_v0 : Ref sig .tc := ⟨.hbm, 60, rfl⟩
abbrev main_call3_v1 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_call4_v0 : Ref sig .tc := ⟨.hbm, 81, rfl⟩
abbrev main_call4_v1 : Ref sig .tc := ⟨.hbm, 82, rfl⟩
abbrev main_v49 : Ref sig .tc := ⟨.hbm, 83, rfl⟩
abbrev main_cst_14 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_17 : Ref sig .tc := ⟨.hbm, 93, rfl⟩
abbrev main_v56 : Ref sig .tc := ⟨.hbm, 94, rfl⟩
abbrev main_v57 : Ref sig .tc := ⟨.hbm, 95, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  reducesTo_S64x256x128_S64x256_d2 : S64x256x128.ReducesTo [2] S64x256
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S64x256x1_S64x256x128_0_1_2 : S64x256x1.BroadcastsInDim S64x256x128 (![0, 1, 2] : Fin 3 → Fin S64x256x128.rank)
  transposes_S64x256x64x32_S64x64x32x256_2_0_3_1 : S64x256x64x32.Transposes [2, 0, 3, 1] S64x64x32x256
  bcast_S64x32x1_S64x1x32x1_0_2_3 : S64x32x1.BroadcastsInDim S64x1x32x1 (![0, 2, 3] : Fin 3 → Fin S64x1x32x1.rank)
  shapeCasts_S64x256x1_S64x256 : S64x256x1.ShapeCasts S64x256
  bcast_S64x256_S1x64x256_1_2 : S64x256.BroadcastsInDim S1x64x256 (![1, 2] : Fin 2 → Fin S1x64x256.rank)
  bcast_S1x64x256_S1x64x1x256_0_1_3 : S1x64x256.BroadcastsInDim S1x64x1x256 (![0, 1, 3] : Fin 3 → Fin S1x64x1x256.rank)
  transposes_S1x64x1x256_S64x1x1x256_1_0_2_3 : S1x64x1x256.Transposes [1, 0, 2, 3] S64x1x1x256
  bcast_S64x1x32x1_S64x1x32x256_0_1_2_3 : S64x1x32x1.BroadcastsInDim S64x1x32x256 (![0, 1, 2, 3] : Fin 4 → Fin S64x1x32x256.rank)
  bcast_S64x1x1x256_S64x1x32x256_0_1_2_3 : S64x1x1x256.BroadcastsInDim S64x1x32x256 (![0, 1, 2, 3] : Fin 4 → Fin S64x1x32x256.rank)
  bcast_S_S64x1x32x256 : S_.BroadcastsInDim S64x1x32x256 (![] : Fin 0 → Fin S64x1x32x256.rank)
  bcast_S64x1x32x256_S64x64x32x256_0_1_2_3 : S64x1x32x256.BroadcastsInDim S64x64x32x256 (![0, 1, 2, 3] : Fin 4 → Fin S64x64x32x256.rank)
  bcast_S_S64x64x32x256 : S_.BroadcastsInDim S64x64x32x256 (![] : Fin 0 → Fin S64x64x32x256.rank)
  reducesTo_S64x64x32x256_S64x64x32_d3 : S64x64x32x256.ReducesTo [3] S64x64x32
  bcast_S_S64x64x32 : S_.BroadcastsInDim S64x64x32 (![] : Fin 0 → Fin S64x64x32.rank)
  reducesTo_S64x64x32_S64x64_d2 : S64x64x32.ReducesTo [2] S64x64
  bcast_S_S64x64 : S_.BroadcastsInDim S64x64 (![] : Fin 0 → Fin S64x64.rank)
  reducesTo_S64x64x32x256_S64x64x256_d2 : S64x64x32x256.ReducesTo [2] S64x64x256
  bcast_S_S64x64x256 : S_.BroadcastsInDim S64x64x256 (![] : Fin 0 → Fin S64x64x256.rank)
  reducesTo_S64x64x256_S64x64_d2 : S64x64x256.ReducesTo [2] S64x64
  dot_S64x256x128_S64x32x128_S64x256x64x32_2_2_01_01_n_n_wf : DotDims.WF S64x256x128 S64x32x128 S64x256x64x32 [2] [2] [0, 1] [0, 1] [] []

variable [Facts₀]

def dot_S64x256x128_S64x32x128_S64x256x64x32_2_2_01_01_n_n : DotDims S64x256x128 S64x32x128 S64x256x64x32 where
  lhsContracting := [2]
  rhsContracting := [2]
  lhsNonContracting := [0, 1]
  rhsNonContracting := [0, 1]
  lhsBatch := []
  rhsBatch := []
  wf := dot_S64x256x128_S64x32x128_S64x256x64x32_2_2_01_01_n_n_wf

class Facts : Prop extends Facts₀ where

variable [Facts]
-- ==== Proof.Spec.lean ====
/-
  The mathematics of the two programs, with no program in sight.

  Inputs: query embeddings `Q q t d` (64 batches, 32 tokens, 128 features), document embeddings `D c s d`
  (64 batches, 256 tokens), and the two token masks already read as extended reals, `A q t` and `B c s`.

  Every token vector is divided by `max ‖x‖ ε` and multiplied by its own mask value; the similarity of a query token
  and a document token is their inner product. Both programs then hide the pairs whose query token, or whose document
  token *of the query's own batch*, is masked out — the reference by replacing the entry with `-10⁹`, the kernel by
  adding `(mask - 1) · 10⁹` for each of the two masks — and feed the result to one and the same tail: the maximum over
  document tokens (and over query tokens), kept only where it exceeds `-10⁸`, averaged over the kept entries (at least
  one), and the two averages halved.
-/
import Idealize.ShloMosaic.PureOps.Ideal

noncomputable section

namespace Chamfer

open Idealize.ShloMosaic

/-! ## The constants the programs spell, and the reals they denote -/

/-- The guard under the norm, `f32(1e-12)`. -/
abbrev eps : EReal := Ideal.ofBits .f32 0x2B8CBCCC#32
/-- `10⁹`, the size of the kernel's additive penalty. -/
abbrev big : EReal := Ideal.ofBits .f32 0x4E6E6B28#32
/-- `-10⁹`, the reference's fill for a hidden pair. -/
abbrev negBig : EReal := Ideal.ofBits .f32 0xCE6E6B28#32
/-- `-10⁸`, the threshold above which a maximum counts. -/
abbrev thr : EReal := Ideal.ofBits .f32 0xCCBEBC20#32
/-- `1/2`, the kernel's last factor. -/
abbrev half : EReal := Ideal.ofBits .f32 0x3F000000#32
/-- `2`, the reference's last divisor. -/
abbrev two : EReal := Ideal.ofBits .f32 0x40000000#32

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

theorem big_eq : big = ((1000000000 : ℝ) : EReal) := by
  simp [big, Ideal.ofBits, Ideal.ieee, -EReal.coe_mul]; norm_num

theorem negBig_eq : negBig = ((-1000000000 : ℝ) : EReal) := by
  simp [negBig, Ideal.ofBits, Ideal.ieee, -EReal.coe_mul]; norm_num

theorem thr_eq : thr = ((-100000000 : ℝ) : EReal) := by
  simp [thr, Ideal.ofBits, Ideal.ieee, -EReal.coe_mul]; norm_num

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- The guard is a positive real. -/
theorem eps_pos : ∃ e : ℝ, 0 < e ∧ eps = (e : EReal) := by
  refine ⟨(9223372 : ℝ) * (2 : ℝ) ^ (-63 : ℤ), by positivity, ?_⟩
  simp [eps, Ideal.ofBits, Ideal.ieee, -EReal.coe_mul] <;> norm_num

/-! ## The two programs, one pair of batches at a time

A pair is one query batch — its 32 token vectors `X t d` and their mask values `a t` — against one document batch,
given already normalised and masked, `Y s d`, together with the mask row `b s` the programs hide document tokens by
(the row of the QUERY's batch). -/

/-- The guarded Euclidean norm of one token vector. -/
def nrm (x : Fin 128 → EReal) : EReal := max (Ideal.sqrt (∑ d, x d * x d)) eps

/-- A batch of token vectors, each divided by its guarded norm and multiplied by its mask value. -/
def dnrm {n : ℕ} (Z : Fin n → Fin 128 → EReal) (z : Fin n → EReal) (s : Fin n) (d : Fin 128) : EReal :=
  Ideal.div (Z s d) (nrm (Z s)) * z s

/-- The inner product of query token `t` (normalised, masked) with document token `s`. -/
def simP (X : Fin 32 → Fin 128 → EReal) (a : Fin 32 → EReal) (Y : Fin 256 → Fin 128 → EReal)
    (t : Fin 32) (s : Fin 256) : EReal := ∑ d, dnrm X a t d * Y s d

/-- The reference's hidden similarities: a pair of tokens counts when the product of its two mask values is
    positive; otherwise the entry is `-10⁹`. -/
def mRefP (X : Fin 32 → Fin 128 → EReal) (a : Fin 32 → EReal) (Y : Fin 256 → Fin 128 → EReal) (b : Fin 256 → EReal)
    (t : Fin 32) (s : Fin 256) : EReal := if 0 < a t * b s then simP X a Y t s else negBig

/-- The kernel's hidden similarities: two additive penalties, each `0` at mask `1` and `-10⁹` at mask `0`. -/
def mKerP (X : Fin 32 → Fin 128 → EReal) (a : Fin 32 → EReal) (Y : Fin 256 → Fin 128 → EReal) (b : Fin 256 → EReal)
    (t : Fin 32) (s : Fin 256) : EReal := simP X a Y t s + (a t - 1) * big + (b s - 1) * big

/-- The maximum of finitely many extended reals, from `-∞`. -/
def vmax {n : ℕ} (f : Fin n → EReal) : EReal := (Finset.univ : Finset (Fin n)).fold max ⊥ f

/-- `1` where a maximum exceeds the threshold, else `0`. -/
def valid (x : EReal) : EReal := if thr < x then 1 else 0

/-- The maximum itself where it counts, else `0`. -/
def keep (x : EReal) : EReal := if 0 < valid x then x else 0

/-- The common tail: the mean over query tokens of the kept maxima over document tokens, plus the mean over
    document tokens of the kept maxima over query tokens (each mean over at least one entry), then halved by `h`. -/
def scoreP (M : Fin 32 → Fin 256 → EReal) (h : EReal → EReal) : EReal :=
  h (Ideal.div (∑ t, keep (vmax fun s => M t s)) (max (∑ t, valid (vmax fun s => M t s)) 1)
    + Ideal.div (∑ s, keep (vmax fun t => M t s)) (max (∑ s, valid (vmax fun t => M t s)) 1))

/-- What the reference computes for a pair. -/
def refP (X : Fin 32 → Fin 128 → EReal) (a : Fin 32 → EReal) (Y : Fin 256 → Fin 128 → EReal) (b : Fin 256 → EReal) : EReal :=
  scoreP (mRefP X a Y b) (fun x => Ideal.div x two)

/-- What the kernel computes for a pair. -/
def kerP (X : Fin 32 → Fin 128 → EReal) (a : Fin 32 → EReal) (Y : Fin 256 → Fin 128 → EReal) (b : Fin 256 → EReal) : EReal :=
  scoreP (mKerP X a Y b) (fun x => x * half)

/-! ## The two programs as functions of the argument arrays

`Q q t d`, `D c s d` the embeddings; `A q t`, `B c s` the masks read as extended reals. Query batch `q` meets
document batch `c`, normalised and masked by its own mask row `B c`; tokens are hidden by `A q` and by `B q`. -/

section
variable (Q : Fin 64 → Fin 32 → Fin 128 → EReal) (A : Fin 64 → Fin 32 → EReal)
  (D : Fin 64 → Fin 256 → Fin 128 → EReal) (B : Fin 64 → Fin 256 → EReal)

/-- What the reference computes at `(q, c)`. -/
def refG (q c : Fin 64) : EReal := refP (Q q) (A q) (dnrm (D c) (B c)) (B q)

/-- What the kernel computes at `(q, c)`. -/
def kerG (q c : Fin 64) : EReal := kerP (Q q) (A q) (dnrm (D c) (B c)) (B q)

end

end Chamfer

end
-- ==== Proof.KerSim.lean ====
/-
  The kernel's hidden similarities for one chunk, as arithmetic: the block-matrix product of the normalised,
  masked query block with the chunk's document tokens, plus the two additive mask penalties, read at one entry.
-/
import proofs.«431161_j66718021976303_3_alg».proof.Proof.Gen.KernelIdeal.Skeleton
import proofs.«431161_j66718021976303_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Chamfer.KerSim

open Idealize.ShloMosaic Idealize.ShloMosaic.ValueIdx Cert.KernelIdeal Cert.KernelIdeal.Gen

/-! ## Rows and columns of the flattened product

The product is taken between the query block flattened to 256 rows, row `p * 32 + t` holding token `t` of batch `p`,
and the chunk flattened to 8192 columns, column `lr * 256 + s` holding token `s` of the chunk's batch `lr`. -/

/-- The flattened row of query token `(p, t)`. -/
abbrev row (p : Fin 8) (t : Fin 32) : Fin 256 := ⟨p.val * 32 + t.val, by have := p.isLt; have := t.isLt; omega⟩

/-- The flattened column of document token `(lr, s)`. -/
abbrev col (lr : Fin 32) (s : Fin 256) : Fin 8192 := ⟨lr.val * 256 + s.val, by have := lr.isLt; have := s.isLt; omega⟩

section Layout
variable {α : Type}

/-- Flattening `[8, 32, 128]` to `[256, 128]` keeps row-major order: row `p * 32 + t` is the vector of `(p, t)`. -/
theorem cast_8x32x128_256x128 (v : S8x32x128.Idx → α) (h : S8x32x128.ShapeCasts S256x128) (p : Fin 8) (t : Fin 32)
    (d : Fin 128) : shapeCast S256x128 v h (ix2 (row p t) d) = v (ix3 p t d) :=
  shapeCast_apply v h _ _ (by
    rw [Shape.rowMajor_val_three, Shape.rowMajor_val_two]
    show (p.val * 32 + t.val) * 128 + d.val = (p.val * 32 + t.val) * 128 + d.val
    rfl)

/-- Flattening `[32, 256, 128]` to `[8192, 128]`: row `lr * 256 + s` is the vector of `(lr, s)`. -/
theorem cast_32x256x128_8192x128 (v : S32x256x128.Idx → α) (h : S32x256x128.ShapeCasts S8192x128) (lr : Fin 32)
    (s : Fin 256) (d : Fin 128) : shapeCast S8192x128 v h (ix2 (col lr s) d) = v (ix3 lr s d) :=
  shapeCast_apply v h _ _ (by
    rw [Shape.rowMajor_val_three, Shape.rowMajor_val_two]
    show (lr.val * 256 + s.val) * 128 + d.val = (lr.val * 256 + s.val) * 128 + d.val
    rfl)

/-- Unflattening `[256, 8192]` to `[8, 32, 32, 256]`: entry `(p, t, lr, s)` is entry `(p * 32 + t, lr * 256 + s)`. -/
theorem cast_256x8192_8x32x32x256 (v : S256x8192.Idx → α) (h : S256x8192.ShapeCasts S8x32x32x256) (p : Fin 8)
    (t : Fin 32) (lr : Fin 32) (s : Fin 256) :
    shapeCast S8x32x32x256 v h (ix4 p t lr s) = v (ix2 (row p t) (col lr s)) :=
  shapeCast_apply v h _ _ (by
    rw [Shape.rowMajor_val_two, Shape.rowMajor_val_four]
    show (p.val * 32 + t.val) * 8192 + (lr.val * 256 + s.val)
      = ((p.val * 32 + t.val) * 32 + lr.val) * 256 + s.val
    omega)

/-- `[8, 32]` with two unit axes appended: entry `(p, t, 0, 0)` is entry `(p, t)`. -/
theorem cast_8x32_8x32x1x1 (v : S8x32.Idx → α) (h : S8x32.ShapeCasts S8x32x1x1) (p : Fin 8) (t : Fin 32)
    (z z' : Fin 1) : shapeCast S8x32x1x1 v h (ix4 p t z z') = v (ix2 p t) :=
  shapeCast_apply v h _ _ (by
    rw [Shape.rowMajor_val_two, Shape.rowMajor_val_four]
    show p.val * 32 + t.val = ((p.val * 32 + t.val) * 1 + z.val) * 1 + z'.val
    have := z.isLt; have := z'.isLt; omega)

/-- `[8, 256]` with two unit axes inserted in the middle: entry `(p, 0, 0, s)` is entry `(p, s)`. -/
theorem cast_8x256_8x1x1x256 (v : S8x256.Idx → α) (h : S8x256.ShapeCasts S8x1x1x256) (p : Fin 8) (z z' : Fin 1)
    (s : Fin 256) : shapeCast S8x1x1x256 v h (ix4 p z z' s) = v (ix2 p s) :=
  shapeCast_apply v h _ _ (by
    rw [Shape.rowMajor_val_two, Shape.rowMajor_val_four]
    show p.val * 256 + s.val = ((p.val * 1 + z.val) * 1 + z'.val) * 256 + s.val
    have := z.isLt; have := z'.isLt; omega)

/-- `[8, 32]` with one unit axis appended: entry `(p, t, 0)` is entry `(p, t)`. -/
theorem cast_8x32_8x32x1 (v : S8x32.Idx → α) (h : S8x32.ShapeCasts S8x32x1) (p : Fin 8) (t : Fin 32) (z : Fin 1) :
    shapeCast S8x32x1 v h (ix3 p t z) = v (ix2 p t) :=
  shapeCast_apply v h _ _ (by
    rw [Shape.rowMajor_val_two, Shape.rowMajor_val_three]
    show p.val * 32 + t.val = (p.val * 32 + t.val) * 1 + z.val
    have := z.isLt; omega)

/-- A `[8, 32, 1, 1]` array spread over `[8, 32, 32, 256]` is constant along the last two axes. -/
theorem bcast_8x32x1x1 (v : S8x32x1x1.Idx → α) (h : S8x32x1x1.Broadcasts S8x32x32x256) (p : Fin 8) (t : Fin 32)
    (lr : Fin 32) (s : Fin 256) : broadcastTo S8x32x32x256 v h (ix4 p t lr s) = v (ix4 p t 0 0) :=
  broadcastTo_apply v h _ _ (fun a => match a with
    | ⟨0, _⟩ => by show p.val = if (8 : Nat) = 1 then 0 else p.val; rw [if_neg (by decide)]
    | ⟨1, _⟩ => by show t.val = if (32 : Nat) = 1 then 0 else t.val; rw [if_neg (by decide)]
    | ⟨2, _⟩ => by show 0 = if (1 : Nat) = 1 then 0 else lr.val; rw [if_pos rfl]
    | ⟨3, _⟩ => by show 0 = if (1 : Nat) = 1 then 0 else s.val; rw [if_pos rfl])

/-- A `[8, 1, 1, 256]` array spread over `[8, 32, 32, 256]` is constant along the middle two axes. -/
theorem bcast_8x1x1x256 (v : S8x1x1x256.Idx → α) (h : S8x1x1x256.Broadcasts S8x32x32x256) (p : Fin 8) (t : Fin 32)
    (lr : Fin 32) (s : Fin 256) : broadcastTo S8x32x32x256 v h (ix4 p t lr s) = v (ix4 p 0 0 s) :=
  broadcastTo_apply v h _ _ (fun a => match a with
    | ⟨0, _⟩ => by show p.val = if (8 : Nat) = 1 then 0 else p.val; rw [if_neg (by decide)]
    | ⟨1, _⟩ => by show 0 = if (1 : Nat) = 1 then 0 else t.val; rw [if_pos rfl]
    | ⟨2, _⟩ => by show 0 = if (1 : Nat) = 1 then 0 else lr.val; rw [if_pos rfl]
    | ⟨3, _⟩ => by show s.val = if (256 : Nat) = 1 then 0 else s.val; rw [if_neg (by decide)])

/-- A `[8, 32, 1]` array spread over `[8, 32, 128]` is constant along the last axis. -/
theorem bcast_8x32x1 (v : S8x32x1.Idx → α) (h : S8x32x1.Broadcasts S8x32x128) (p : Fin 8) (t : Fin 32) (d : Fin 128) :
    broadcastTo S8x32x128 v h (ix3 p t d) = v (ix3 p t 0) :=
  broadcastTo_apply v h _ _ (fun a => match a with
    | ⟨0, _⟩ => by show p.val = if (8 : Nat) = 1 then 0 else p.val; rw [if_neg (by decide)]
    | ⟨1, _⟩ => by show t.val = if (32 : Nat) = 1 then 0 else t.val; rw [if_neg (by decide)]
    | ⟨2, _⟩ => by show 0 = if (1 : Nat) = 1 then 0 else d.val; rw [if_pos rfl])

end Layout

/-! ## The block-matrix product at an entry -/

/-- The left operand's row at an output entry is the entry's row. -/
theorem lhs_axis0 (i : S256x8192.Idx) (q : dot_S256x128_S128x8192_S256x8192_1_0_0_1_n_n.contr.Idx) :
    (dot_S256x128_S128x8192_S256x8192_1_0_0_1_n_n.lhsIdx i q 0).val = (i 0).val := by
  unfold DotDims.lhsIdx
  rw [dif_neg (show ¬(0 : Fin S256x128.rank) ∈ dot_S256x128_S128x8192_S256x8192_1_0_0_1_n_n.lhsBatch by decide), dif_pos (show (0 : Fin S256x128.rank) ∈ dot_S256x128_S128x8192_S256x8192_1_0_0_1_n_n.lhsNonContracting by decide)]
  rfl

/-- The left operand's column is the contracted coordinate. -/
theorem lhs_axis1 (i : S256x8192.Idx) (q : dot_S256x128_S128x8192_S256x8192_1_0_0_1_n_n.contr.Idx) :
    (dot_S256x128_S128x8192_S256x8192_1_0_0_1_n_n.lhsIdx i q 1).val = (q ⟨0, by decide⟩).val :=
  dot_S256x128_S128x8192_S256x8192_1_0_0_1_n_n.lhsIdx_val_of_single rfl i q

/-- The right operand's row is the contracted coordinate. -/
theorem rhs_axis0 (i : S256x8192.Idx) (q : dot_S256x128_S128x8192_S256x8192_1_0_0_1_n_n.contr.Idx) :
    (dot_S256x128_S128x8192_S256x8192_1_0_0_1_n_n.rhsIdx i q 0).val = (q ⟨0, by decide⟩).val :=
  dot_S256x128_S128x8192_S256x8192_1_0_0_1_n_n.rhsIdx_val_of_single rfl i q

/-- The right operand's column at an output entry is the entry's column. -/
theorem rhs_axis1 (i : S256x8192.Idx) (q : dot_S256x128_S128x8192_S256x8192_1_0_0_1_n_n.contr.Idx) :
    (dot_S256x128_S128x8192_S256x8192_1_0_0_1_n_n.rhsIdx i q 1).val = (i 1).val := by
  unfold DotDims.rhsIdx
  rw [dif_neg (show ¬(1 : Fin S128x8192.rank) ∈ dot_S256x128_S128x8192_S256x8192_1_0_0_1_n_n.rhsBatch by decide), dif_pos (show (1 : Fin S128x8192.rank) ∈ dot_S256x128_S128x8192_S256x8192_1_0_0_1_n_n.rhsNonContracting by decide)]
  rfl

/-- Entry `(r, c)` of the product of a `[256, 128]` matrix with a `[128, 8192]` matrix, accumulated from zero, is
    the sum over the 128 contracted coordinates of the products of row `r` with column `c`. -/
theorem matmul_at (A : FVec Ideal S256x128 .bf16) (B : FVec Ideal S128x8192 .bf16) (r : Fin 256) (c : Fin 8192) :
    matmul dot_S256x128_S128x8192_S256x8192_1_0_0_1_n_n none A B (constant (F := Ideal) S256x8192 .f32 0x00000000#32) (ix2 r c)
      = ∑ k : Fin 128, A (ix2 r k) * B (ix2 k c) := by
  simp only [matmul]
  rw [Ideal.matmul_constant_zero_apply, ← Equiv.sum_comp (ValueIdx.contrEquiv1 dot_S256x128_S128x8192_S256x8192_1_0_0_1_n_n 128 rfl rfl).symm]
  refine Finset.sum_congr rfl fun k _ => ?_
  have hk := ValueIdx.contrEquiv1_symm_val dot_S256x128_S128x8192_S256x8192_1_0_0_1_n_n 128 rfl rfl k
  have el : dot_S256x128_S128x8192_S256x8192_1_0_0_1_n_n.lhsIdx (ix2 r c) ((ValueIdx.contrEquiv1 dot_S256x128_S128x8192_S256x8192_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S256x128_S128x8192_S256x8192_1_0_0_1_n_n.rhsIdx (ix2 r c) ((ValueIdx.contrEquiv1 dot_S256x128_S128x8192_S256x8192_1_0_0_1_n_n 128 rfl rfl).symm k) = ix2 k c := funext fun a => Fin.ext (by
    match a with
    | ⟨0, _⟩ => exact (rhs_axis0 _ _).trans hk
    | ⟨1, _⟩ => exact rhs_axis1 _ _)
  rw [el, er]

/-! ## The similarities' payload over arbitrary operands -/

/-- Entry `(p, t, lr, s)` of the payload: the inner product of row `(p, t)` of the left operand with token `(lr, s)` of
    the chunk, plus the first penalty at `(p, t)` and the second at `(p, s)`. -/
theorem pay7_read (v15 : FVec Ideal S256x128 .bf16) (v19 : FVec Ideal S8x32 .f32) (v25 : FVec Ideal S8x256 .f32)
    (v35 : Vec Ideal S32x256x128 .bf16) (p : Fin 8) (t : Fin 32) (lr : Fin 32) (s : Fin 256) :
    k0_pay7 (F := Ideal) v15 v19 v25 v35 (ix4 p t lr s)
      = (∑ d : Fin 128, v15 (ix2 (row p t) d) * v35 (ix3 lr s d)) + v19 (ix2 p t) + v25 (ix2 p s) := by
  unfold k0_pay7
  refine (addf_apply _ _ _).trans ?_
  refine congrArg₂ (· + ·) ((addf_apply _ _ _).trans (congrArg₂ (· + ·) ?_ ?_)) ?_
  · refine (cast_256x8192_8x32x32x256 _ _ p t lr s).trans ?_
    refine (matmul_at _ _ _ _).trans ?_
    refine Finset.sum_congr rfl fun d _ => congrArg (v15 (ix2 (row p t) d) * ·) ?_
    refine (transpose_ix2_apply _ _ _ _).trans ?_
    refine (cast_32x256x128_8192x128 _ _ lr s d).trans ?_
    exact congrFun (shapeCast_self _ _) _
  · refine (bcast_8x32x1x1 _ _ p t lr s).trans ?_
    exact cast_8x32_8x32x1x1 _ _ p t 0 0
  · refine (bcast_8x1x1x256 _ _ p t lr s).trans ?_
    exact cast_8x256_8x1x1x256 _ _ p 0 0 s

/-! ## The three operands the kernel feeds it -/

/-- A cast of `[8, 32]` to itself changes nothing. -/
theorem pay1_eq (x1 : Vec Ideal S8x32 .f32) : k0_pay1 (F := Ideal) x1 = x1 := by
  unfold k0_pay1
  exact shapeCast_self _ _

/-- The sum of a `[8, 32, 128]` array along its last axis, at `(p, t)`, is the sum of the 128 entries of `(p, t)`. -/
theorem lane_sum (v : FVec Ideal S8x32x128 .f32) (h : S8x32x128.Reduces [2] S8x32) (hφ : FKind.Formats .f32)
    (hacc : (0x00000000#32 : BitVec 32) = 0x00000000#32) (p : Fin 8) (t : Fin 32) :
    multiReduction (F := Ideal) .add [2] S8x32 v 0x00000000#32 h hφ hacc (ix2 p t) = ∑ d : Fin 128, v (ix3 p t d) := by
  refine (Ideal.multiReduction_add_single v 0x00000000#32 h hφ hacc (ix2 p t)).trans ?_
  show ∑ d : Fin 128, v (h.lift (ix2 p t) d) = _
  refine Finset.sum_congr rfl fun d _ => congrArg v (funext fun a => Fin.ext ?_)
  match a with
  | ⟨0, _⟩ => rfl
  | ⟨1, _⟩ => rfl
  | ⟨2, _⟩ => rfl

/-- The penalty of the query mask: `(mask - 1) · 10⁹` at every token. -/
theorem pay3_at (x1 : Vec Ideal S8x32 .f32) (p : Fin 8) (t : Fin 32) :
    k0_pay3 (F := Ideal) x1 (ix2 p t) = (x1 (ix2 p t) - 1) * Chamfer.big := by
  unfold k0_pay3
  show (k0_pay1 (F := Ideal) x1 (ix2 p t) - Ideal.ofBits .f32 0x3F800000#32) * Ideal.ofBits .f32 0x4E6E6B28#32 = _
  rw [pay1_eq, Chamfer.ofBits_one]

/-- The penalty of the document mask: `(mask - 1) · 10⁹` at every token. -/
theorem pay4_at (x3 : Vec Ideal S8x256 .f32) (p : Fin 8) (s : Fin 256) :
    k0_pay4 (F := Ideal) x3 (ix2 p s) = (x3 (ix2 p s) - 1) * Chamfer.big := by
  unfold k0_pay4
  show (shapeCast S8x256 x3 shapeCasts_S8x256_S8x256 (ix2 p s) - Ideal.ofBits .f32 0x3F800000#32)
      * Ideal.ofBits .f32 0x4E6E6B28#32 = _
  rw [shapeCast_self, Chamfer.ofBits_one]

/-- The left operand: row `p * 32 + t` is query token `(p, t)` divided by its guarded norm and multiplied by its mask
    value (the change of format is the identity on the extended reals). -/
theorem pay2_at (x0 : Vec Ideal S8x32x128 .f32) (x1 : Vec Ideal S8x32 .f32) (p : Fin 8) (t : Fin 32) (d : Fin 128) :
    k0_pay2 (F := Ideal) x0 x1 (ix2 (row p t) d)
      = Chamfer.dnrm (fun t d => x0 (ix3 p t d)) (fun t => x1 (ix2 p t)) t d := by
  unfold k0_pay2
  refine (cast_8x32x128_256x128 _ _ p t d).trans ?_
  refine (truncf_apply (φ := .f32) (ψ := .bf16) _ bitsLt_bf16_f32 (ix3 p t d)).trans ?_
  refine (mulf_apply _ _ _).trans ?_
  unfold Chamfer.dnrm Chamfer.nrm
  refine congrArg₂ (· * ·) ((divf_apply _ _ _).trans (congrArg (Ideal.div (x0 (ix3 p t d))) ?_)) ?_
  · refine (bcast_8x32x1 _ _ p t d).trans ?_
    refine (maximumf_apply _ _ _).trans ?_
    refine congrArg₂ max (congrArg Ideal.sqrt ?_) rfl
    refine (cast_8x32_8x32x1 _ _ p t 0).trans ?_
    exact lane_sum _ _ _ _ p t
  · refine (bcast_8x32x1 _ _ p t d).trans ?_
    refine (cast_8x32_8x32x1 _ _ p t 0).trans ?_
    exact congrFun (pay1_eq x1) _

/-! ## The kernel's hidden similarities at an entry -/

/-- Entry `(p, t, lr, s)` of the chunk's hidden similarities: query token `(p, t)` of the block against document
    token `(lr, s)` of the chunk, with the penalty of the query token's mask and of document-mask entry `(p, s)`. -/
theorem pay7_at (x0 : Vec Ideal S8x32x128 .f32) (x1 : Vec Ideal S8x32 .f32) (x3 : Vec Ideal S8x256 .f32)
    (v35 : Vec Ideal S32x256x128 .bf16) (p : Fin 8) (t : Fin 32) (lr : Fin 32) (s : Fin 256) :
    k0_pay7 (F := Ideal) (k0_pay2 x0 x1) (k0_pay3 x1) (k0_pay4 x3) v35 (ix4 p t lr s)
      = Chamfer.mKerP (fun t d => x0 (ix3 p t d)) (fun t => x1 (ix2 p t)) (fun s d => v35 (ix3 lr s d))
          (fun s => x3 (ix2 p s)) t s := by
  refine (pay7_read _ _ _ _ p t lr s).trans ?_
  unfold Chamfer.mKerP Chamfer.simP
  refine congrArg₂ (· + ·) (congrArg₂ (· + ·) ?_ (pay3_at x1 p t)) (pay4_at x3 p s)
  exact Finset.sum_congr rfl fun d _ => congrArg (· * v35 (ix3 lr s d)) (pay2_at x0 x1 p t d)

end Chamfer.KerSim

end
-- ==== Proof.KerPay.lean ====
/-
  One trip of the kernel's chunk loop, as arithmetic: the value it stores, read at one entry, is the
  specification's kernel function of the query block's batch and the chunk's document batch.
-/
import proofs.«431161_j66718021976303_3_alg».proof.Proof.Gen.KernelIdeal.Skeleton
import proofs.«431161_j66718021976303_3_alg».proof.Proof.Spec
import proofs.«431161_j66718021976303_3_alg».proof.Proof.KerSim
import Idealize.ShloMosaic.Lib.ValueIdx
import Idealize.ShloMosaic.Lib.Pipeline.Value
import Idealize.ShloMosaic.Lib.ValueLayout
import Idealize.ShloMosaic.PureOps.Ideal.Laws

noncomputable section

namespace Chamfer.KerPay

open Idealize.ShloMosaic Idealize.ShloMosaic.ValueIdx Cert.KernelIdeal Cert.KernelIdeal.Gen

/-! ## The two one-bit tests, read as reals -/

/-- The bit of "`x` exceeds the threshold", widened to a word and read as a signed integer, is `valid x`. -/
theorem sitofp_gt_thr (x : EReal) :
    FloatOps.sitofp (F := Ideal) .f32
        ((FloatOps.cmpf (F := Ideal) (φ := .f32) .ogt x (Scalar.ofBits .f32 0xCCBEBC20#32)).setWidth 32) = valid x := by
  show (((BitVec.setWidth 32 (Ideal.cmp .ogt x thr)).toInt : ℝ) : EReal) = valid x
  unfold valid
  by_cases h : thr < x
  · have hb : Ideal.cmp .ogt x thr = 1#1 := by unfold Ideal.cmp; rw [decide_eq_true h]; rfl
    have h1 : (BitVec.setWidth 32 (1#1)).toInt = 1 := by decide
    rw [hb, if_pos h, h1]; simp
  · have hb : Ideal.cmp .ogt x thr = 0#1 := by unfold Ideal.cmp; rw [decide_eq_false h]; rfl
    have h0 : (BitVec.setWidth 32 (0#1)).toInt = 0 := by decide
    rw [hb, if_neg h, h0]; simp

/-- Selecting `x` where `valid x` is positive, else zero, is `keep x`. -/
theorem select_valid_pos (v x : EReal) :
    Scalar.select (FloatOps.cmpf (F := Ideal) (φ := .f32) .ogt v (Scalar.ofBits .f32 0x00000000#32)) x
        (Scalar.ofBits (F := Ideal) .f32 0x00000000#32) = if 0 < v then x else 0 := by
  show Scalar.select (Ideal.cmp .ogt v (Ideal.ofBits .f32 0x00000000#32)) x (Ideal.ofBits .f32 0x00000000#32) = _
  rw [ofBits_zero]
  by_cases h : (0 : EReal) < v
  · have hb : Ideal.cmp .ogt v 0 = 1#1 := by unfold Ideal.cmp; rw [decide_eq_true h]; rfl
    rw [hb, if_pos h]; rfl
  · have hb : Ideal.cmp .ogt v 0 = 0#1 := by unfold Ideal.cmp; rw [decide_eq_false h]; rfl
    rw [hb, if_neg h]; rfl

/-- The validity of every entry of a vector: the bit of "exceeds the threshold", widened and read as a real. -/
theorem valid_vec {S : Shape} (w : FVec Ideal S .f32) (h : 1 < 32) (i : S.Idx) :
    sitofp (F := Ideal) .f32 (extui 32 (cmpf .ogt w (broadcast S (Scalar.ofBits .f32 0xCCBEBC20#32))) h) i = valid (w i) :=
  sitofp_gt_thr (w i)

/-- Entries of `x` selected where `v` is positive, zero elsewhere. -/
theorem keep_vec {S : Shape} (v x : FVec Ideal S .f32) (i : S.Idx) :
    select (cmpf .ogt v (broadcast S (Scalar.ofBits .f32 0x00000000#32))) x (broadcast S (Scalar.ofBits .f32 0x00000000#32)) i
      = if 0 < v i then x i else 0 :=
  select_valid_pos (v i) (x i)

/-! ## Unit axes added and dropped by a shape cast -/

section Layout
variable {α : Type}

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    simp only [hu, Nat.mul_one, Nat.add_zero])

/-- An `[a, b, c]` array cast to `[a, 1, b, c]` reads, at `(i, u, j, k)`, the operand at `(i, j, k)`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    simp only [hu, Nat.mul_one, Nat.add_zero])

/-- An `[a, b, 1]` array cast to `[a, 1, b, 1]` reads, at `(i, u, j, w)`, the operand at `(i, j, w)`. -/
theorem shapeCast_ab1_a1b1_apply {a b : ℕ} (x : (⟨3, ![a, b, 1]⟩ : Shape).Idx → α)
    (h : (⟨3, ![a, b, 1]⟩ : Shape).ShapeCasts ⟨4, ![a, 1, b, 1]⟩) (i : Fin a) (u : Fin 1) (j : Fin b) (w : Fin 1) :
    shapeCast ⟨4, ![a, 1, b, 1]⟩ x h (ix4 i u j w) = x (ix3 i j w) :=
  shapeCast_apply x h _ _ (by
    have hu : u.val = 0 := by omega
    rw [Shape.rowMajor_val_four, Shape.rowMajor_val_three]
    show (i.val * b + j.val) * 1 + w.val = ((i.val * 1 + u.val) * b + j.val) * 1 + w.val
    simp only [hu, Nat.mul_one, Nat.add_zero])

/-- An `[a, 1, b]` array cast to `[a, 1, b, 1]` reads, at `(i, u, j, w)`, the operand at `(i, u, j)`. -/
theorem shapeCast_a1b_a1b1_apply {a b : ℕ} (x : (⟨3, ![a, 1, b]⟩ : Shape).Idx → α)
    (h : (⟨3, ![a, 1, b]⟩ : Shape).ShapeCasts ⟨4, ![a, 1, b, 1]⟩) (i : Fin a) (u : Fin 1) (j : Fin b) (w : Fin 1) :
    shapeCast ⟨4, ![a, 1, b, 1]⟩ x h (ix4 i u j w) = x (ix3 i u j) :=
  shapeCast_apply x h _ _ (by
    have hw : w.val = 0 := by omega
    rw [Shape.rowMajor_val_four, Shape.rowMajor_val_three]
    show (i.val * 1 + u.val) * b + j.val = ((i.val * 1 + u.val) * b + j.val) * 1 + w.val
    simp only [hw, Nat.mul_one, Nat.add_zero])

/-- An `[a, 1, b, 1]` array cast to `[a, b]` reads, at `(i, j)`, the operand at `(i, 0, j, 0)`. -/
theorem shapeCast_a1b1_ab_apply {a b : ℕ} (x : (⟨4, ![a, 1, b, 1]⟩ : Shape).Idx → α)
    (h : (⟨4, ![a, 1, b, 1]⟩ : Shape).ShapeCasts ⟨2, ![a, b]⟩) (i : Fin a) (j : Fin b) :
    shapeCast ⟨2, ![a, b]⟩ x h (ix2 i j) = x (ix4 i (0 : Fin 1) j (0 : Fin 1)) :=
  shapeCast_apply x h _ _ (by
    rw [Shape.rowMajor_val_four, Shape.rowMajor_val_two]
    show ((i.val * 1 + 0) * b + j.val) * 1 + 0 = i.val * b + j.val
    simp only [Nat.mul_one, Nat.add_zero])

end Layout

/-! ## A reduced index with the reduced coordinate put back -/

/-- Index `(p, t, lr)` with `s` inserted on the last axis is `(p, t, lr, s)`. -/
theorem lift_last (h : S8x32x32x256.Reduces [3] S8x32x32) (p : Fin 8) (t lr : Fin 32) (s : Fin 256) :
    h.lift (ix3 p t lr) s = ix4 p t lr s :=
  funext fun a => match a with | ⟨0, _⟩ => rfl | ⟨1, _⟩ => rfl | ⟨2, _⟩ => rfl | ⟨3, _⟩ => rfl

/-- Index `(p, lr, s)` with `t` inserted on axis 1 is `(p, t, lr, s)`. -/
theorem lift_mid (h : S8x32x32x256.Reduces [1] S8x32x256) (p : Fin 8) (t lr : Fin 32) (s : Fin 256) :
    h.lift (ix3 p lr s) t = ix4 p t lr s :=
  funext fun a => match a with | ⟨0, _⟩ => rfl | ⟨1, _⟩ => rfl | ⟨2, _⟩ => rfl | ⟨3, _⟩ => rfl

/-- Index `(p, lr, u)` with `t` inserted on axis 1 is `(p, t, lr, u)`. -/
theorem lift_mid1 (h : S8x32x32x1.Reduces [1] S8x32x1) (p : Fin 8) (t lr : Fin 32) (u : Fin 1) :
    h.lift (ix3 p lr u) t = ix4 p t lr u :=
  funext fun a => match a with | ⟨0, _⟩ => rfl | ⟨1, _⟩ => rfl | ⟨2, _⟩ => rfl | ⟨3, _⟩ => rfl

/-- Index `(p, u, lr)` with `s` inserted on the last axis is `(p, u, lr, s)`. -/
theorem lift_last1 (h : S8x1x32x256.Reduces [3] S8x1x32) (p : Fin 8) (u : Fin 1) (lr : Fin 32) (s : Fin 256) :
    h.lift (ix3 p u lr) s = ix4 p u lr s :=
  funext fun a => match a with | ⟨0, _⟩ => rfl | ⟨1, _⟩ => rfl | ⟨2, _⟩ => rfl | ⟨3, _⟩ => rfl

/-! ## The two maxima of the hidden similarities -/

/-- The maximum over document tokens, read at `(p, t, lr)`. -/
theorem rowMax_at (M : FVec Ideal S8x32x32x256 .f32) (h : S8x32x32x256.Reduces [3] S8x32x32) (hφ : FKind.Formats .f32)
    (hacc : (0xFF800000#32 : BitVec 32) = FKind.maximumf.neutral .f32 hφ) (p : Fin 8) (t lr : Fin 32) :
    multiReduction (F := Ideal) .maximumf [3] S8x32x32 M 0xFF800000#32 h hφ hacc (ix3 p t lr)
      = vmax fun s => M (ix4 p t lr s) := by
  refine (Ideal.multiReduction_maximumf_single M _ h hφ hacc (ix3 p t lr)).trans ?_
  show (Finset.univ : Finset (Fin 256)).fold max (Ideal.ofBits .f32 0xFF800000#32) (M ∘ h.lift (ix3 p t lr)) = _
  rw [ofBits_negInf]
  exact congrArg (fun f => (Finset.univ : Finset (Fin 256)).fold max ⊥ f) (funext fun s => congrArg M (lift_last h p t lr s))

/-- The maximum over query tokens, read at `(p, lr, s)`. -/
theorem colMax_at (M : FVec Ideal S8x32x32x256 .f32) (h : S8x32x32x256.Reduces [1] S8x32x256) (hφ : FKind.Formats .f32)
    (hacc : (0xFF800000#32 : BitVec 32) = FKind.maximumf.neutral .f32 hφ) (p : Fin 8) (lr : Fin 32) (s : Fin 256) :
    multiReduction (F := Ideal) .maximumf [1] S8x32x256 M 0xFF800000#32 h hφ hacc (ix3 p lr s)
      = vmax fun t => M (ix4 p t lr s) := by
  refine (Ideal.multiReduction_maximumf_single M _ h hφ hacc (ix3 p lr s)).trans ?_
  show (Finset.univ : Finset (Fin 32)).fold max (Ideal.ofBits .f32 0xFF800000#32) (M ∘ h.lift (ix3 p lr s)) = _
  rw [ofBits_negInf]
  exact congrArg (fun f => (Finset.univ : Finset (Fin 32)).fold max ⊥ f) (funext fun t => congrArg M (lift_mid h p t lr s))

/-! ## One stage of the tail at one entry -/

/-- A kept maximum from its three readings: the maximum `x` is `m`, its validity bit as a real is `v`. -/
theorem keep_of {x v m : EReal} (hx : x = m) (hv : v = valid x) : (if 0 < v then x else 0) = keep m := by
  subst hx; subst hv; rfl

/-- The query-side score of the block: entry `(p, lr)` is the mean, over the query tokens whose maximum over
    document tokens counts, of those maxima. -/
theorem pay8_at (v15 : FVec Ideal S256x128 .bf16) (v19 : FVec Ideal S8x32 .f32) (v25 : FVec Ideal S8x256 .f32)
    (v35 : Vec Ideal S32x256x128 .bf16) (p : Fin 8) (lr : Fin 32) :
    k0_pay8 (F := Ideal) v15 v19 v25 v35 (ix2 p lr)
      = Ideal.div (∑ t, keep (vmax fun s => k0_pay7 (F := Ideal) v15 v19 v25 v35 (ix4 p t lr s)))
          (max (∑ t, valid (vmax fun s => k0_pay7 (F := Ideal) v15 v19 v25 v35 (ix4 p t lr s))) 1) := by
  unfold k0_pay8
  generalize k0_pay7 (F := Ideal) v15 v19 v25 v35 = M
  refine (shapeCast_a1b1_ab_apply _ _ p lr).trans ?_
  refine (divf_apply _ _ _).trans ?_
  refine congrArg₂ Ideal.div ?_ ?_
  · refine (shapeCast_ab1_a1b1_apply _ _ p 0 lr 0).trans ?_
    refine (Ideal.multiReduction_add_single _ _ _ _ _ (ix3 p lr 0)).trans ?_
    refine Finset.sum_congr rfl fun t _ => ?_
    refine (congrArg _ (lift_mid1 _ p t lr 0)).trans ?_
    refine (keep_vec _ _ _).trans ?_
    refine keep_of ?_ ?_
    · refine (shapeCast_abc_abc1_apply _ _ p t lr 0).trans ?_
      exact rowMax_at M _ _ _ p t lr
    · exact valid_vec _ _ _
  · refine (maximumf_apply _ _ _).trans ?_
    refine congrArg₂ max ?_ ofBits_one
    refine (shapeCast_ab1_a1b1_apply _ _ p 0 lr 0).trans ?_
    refine (Ideal.multiReduction_add_single _ _ _ _ _ (ix3 p lr 0)).trans ?_
    refine Finset.sum_congr rfl fun t _ => ?_
    refine (congrArg _ (lift_mid1 _ p t lr 0)).trans ?_
    refine (valid_vec _ _ _).trans ?_
    refine congrArg valid ?_
    refine (shapeCast_abc_abc1_apply _ _ p t lr 0).trans ?_
    exact rowMax_at M _ _ _ p t lr

/-- The maximum over query tokens, with its unit axis: entry `(p, u, lr, s)`. -/
theorem pay9_at (v15 : FVec Ideal S256x128 .bf16) (v19 : FVec Ideal S8x32 .f32) (v25 : FVec Ideal S8x256 .f32)
    (v35 : Vec Ideal S32x256x128 .bf16) (p : Fin 8) (u : Fin 1) (lr : Fin 32) (s : Fin 256) :
    k0_pay9 (F := Ideal) v15 v19 v25 v35 (ix4 p u lr s)
      = vmax fun t => k0_pay7 (F := Ideal) v15 v19 v25 v35 (ix4 p t lr s) := by
  unfold k0_pay9
  generalize k0_pay7 (F := Ideal) v15 v19 v25 v35 = M
  refine (shapeCast_abc_a1bc_apply _ _ p u lr s).trans ?_
  exact colMax_at M _ _ _ p lr s

/-- Its validity, entry by entry. -/
theorem pay10_at (v15 : FVec Ideal S256x128 .bf16) (v19 : FVec Ideal S8x32 .f32) (v25 : FVec Ideal S8x256 .f32)
    (v35 : Vec Ideal S32x256x128 .bf16) (i : S8x1x32x256.Idx) :
    k0_pay10 (F := Ideal) v15 v19 v25 v35 i = valid (k0_pay9 (F := Ideal) v15 v19 v25 v35 i) := by
  unfold k0_pay10
  generalize k0_pay9 (F := Ideal) v15 v19 v25 v35 = C
  exact valid_vec _ _ _

/-- Where that validity is positive, entry by entry. -/
theorem pay11_at (v15 : FVec Ideal S256x128 .bf16) (v19 : FVec Ideal S8x32 .f32) (v25 : FVec Ideal S8x256 .f32)
    (v35 : Vec Ideal S32x256x128 .bf16) (i : S8x1x32x256.Idx) :
    k0_pay11 (F := Ideal) v15 v19 v25 v35 i
      = FloatOps.cmpf (F := Ideal) (φ := .f32) .ogt (k0_pay10 (F := Ideal) v15 v19 v25 v35 i)
          (Scalar.ofBits .f32 0x00000000#32) := by
  unfold k0_pay11
  generalize k0_pay10 (F := Ideal) v15 v19 v25 v35 = V
  rfl

/-- The stored block from the four values a trip hands on: entry `(lr, p)` is the query-side score at `(p, lr)`
    plus the mean, over the document tokens whose maximum over query tokens counts, of those maxima, halved. -/
theorem pay5_at (v64 : FVec Ideal S8x32 .f32) (v66 v70 : FVec Ideal S8x1x32x256 .f32) (v72 : IVec S8x1x32x256 1)
    (lr : Fin 32) (p : Fin 8) :
    k0_pay5 (F := Ideal) v64 v66 v70 v72 (ix2 lr p)
      = (v64 (ix2 p lr)
          + Ideal.div (∑ s, Scalar.select (v72 (ix4 p 0 lr s)) (v66 (ix4 p 0 lr s)) (Scalar.ofBits (F := Ideal) .f32 0x00000000#32))
              (max (∑ s, v70 (ix4 p 0 lr s)) 1)) * half := by
  unfold k0_pay5
  refine (congrFun (shapeCast_self _ _) _).trans ?_
  refine (transpose_ix2_apply _ _ lr p).trans ?_
  refine (mulf_apply _ _ _).trans (congrArg (· * half) ?_)
  refine (addf_apply _ _ _).trans (congrArg (v64 (ix2 p lr) + ·) ?_)
  refine (shapeCast_a1b1_ab_apply _ _ p lr).trans ?_
  refine (divf_apply _ _ _).trans ?_
  refine congrArg₂ Ideal.div ?_ ?_
  · refine (shapeCast_a1b_a1b1_apply _ _ p 0 lr 0).trans ?_
    refine (Ideal.multiReduction_add_single _ _ _ _ _ (ix3 p 0 lr)).trans ?_
    refine Finset.sum_congr rfl fun s _ => ?_
    refine (congrArg _ (lift_last1 _ p 0 lr s)).trans ?_
    exact select_apply _ _ _ _
  · refine (maximumf_apply _ _ _).trans ?_
    refine congrArg₂ max ?_ ofBits_one
    refine (shapeCast_a1b_a1b1_apply _ _ p 0 lr 0).trans ?_
    refine (Ideal.multiReduction_add_single _ _ _ _ _ (ix3 p 0 lr)).trans ?_
    refine Finset.sum_congr rfl fun s _ => ?_
    exact congrArg _ (lift_last1 _ p 0 lr s)

/-! ## The trip -/

/-- The stored value of a trip, at chunk row `lr` and query-block row `p`: query batch `p` of the block (its tokens
    `x0`, mask row `x1`) against document batch `lr` of the chunk `v35` (already normalised), tokens hidden by the
    query's mask row and by the document-mask row `x3` of the query's batch. -/
theorem trip_at (x0 : Vec Ideal S8x32x128 .f32) (x1 : Vec Ideal S8x32 .f32) (x3 : Vec Ideal S8x256 .f32)
    (v35 : Vec Ideal S32x256x128 .bf16) (lr : Fin 32) (p : Fin 8) :
    k0_pay5 (F := Ideal)
        (k0_pay8 (k0_pay2 x0 x1) (k0_pay3 x1) (k0_pay4 x3) v35)
        (k0_pay9 (k0_pay2 x0 x1) (k0_pay3 x1) (k0_pay4 x3) v35)
        (k0_pay10 (k0_pay2 x0 x1) (k0_pay3 x1) (k0_pay4 x3) v35)
        (k0_pay11 (k0_pay2 x0 x1) (k0_pay3 x1) (k0_pay4 x3) v35) (ix2 lr p)
      = Chamfer.kerP (fun t d => x0 (ix3 p t d)) (fun t => x1 (ix2 p t)) (fun s d => v35 (ix3 lr s d)) (fun s => x3 (ix2 p s)) := by
  refine (pay5_at _ _ _ _ lr p).trans ?_
  unfold kerP scoreP
  refine congrArg (· * half) ?_
  refine congrArg₂ (· + ·) ?_ ?_
  · refine (pay8_at _ _ _ _ p lr).trans ?_
    refine congrArg₂ Ideal.div ?_ (congrArg (max · 1) ?_)
    · exact Finset.sum_congr rfl fun t _ =>
        congrArg keep (congrArg vmax (funext fun s => KerSim.pay7_at x0 x1 x3 v35 p t lr s))
    · exact Finset.sum_congr rfl fun t _ =>
        congrArg valid (congrArg vmax (funext fun s => KerSim.pay7_at x0 x1 x3 v35 p t lr s))
  · have hcol : ∀ s : Fin 256,
        k0_pay9 (F := Ideal) (k0_pay2 x0 x1) (k0_pay3 x1) (k0_pay4 x3) v35 (ix4 p 0 lr s)
          = vmax fun t => mKerP (fun t d => x0 (ix3 p t d)) (fun t => x1 (ix2 p t)) (fun s d => v35 (ix3 lr s d))
              (fun s => x3 (ix2 p s)) t s := fun s =>
      (pay9_at _ _ _ _ p 0 lr s).trans (congrArg vmax (funext fun t => KerSim.pay7_at x0 x1 x3 v35 p t lr s))
    refine congrArg₂ Ideal.div ?_ (congrArg (max · 1) ?_)
    · refine Finset.sum_congr rfl fun s _ => ?_
      rw [pay11_at]
      refine (select_valid_pos _ _).trans ?_
      exact keep_of (hcol s) (pay10_at _ _ _ _ _)
    · refine Finset.sum_congr rfl fun s _ => ?_
      exact (pay10_at _ _ _ _ _).trans (congrArg valid (hcol s))

end Chamfer.KerPay

end
-- ==== Proof.KerTrip.lean ====
/-
  The scratch buffer after the kernel's chunk loop, as one function of its index.

  The loop has two trips; trip `k` loads document batches `32k … 32k+31`, computes the scores of the 8 query
  batches of the block against each of them, and stores them transposed into rows `32k … 32k+31` of the 64 × 8
  scratch. So after the loop entry `(cc, p)` of the scratch is the kernel's score of query batch `p` of the block
  against document batch `cc`, whatever the scratch held before.
-/
import proofs.«431161_j66718021976303_3_alg».proof.Proof.Gen.KernelIdeal.Loops
import proofs.«431161_j66718021976303_3_alg».proof.Proof.KerPay
import Idealize.ShloMosaic.Lib.Pipeline.Value
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Chamfer.KerTrip

open Idealize.ShloMosaic Idealize.ShloMosaic.TcCoe Idealize.ShloMosaic.Tactic Idealize.ShloMosaic.ValueIdx
open Idealize.SL.Sem
open Cert.KernelIdeal Cert.KernelIdeal.Gen

/-- What one trip stores: the scores of the block's 8 query batches (tokens `v0`, masks `v1`, document-mask rows
    `v20`) against the 32 document batches of the chunk `v35`, transposed to 32 × 8. -/
abbrev tripPay (v0 : Vec Ideal S8x32x128 .f32) (v1 : Vec Ideal S8x32 .f32) (v20 : Vec Ideal S8x256 .f32)
    (v35 : Vec Ideal S32x256x128 .bf16) : FVec Ideal S32x8 .f32 :=
  k0_pay5 (F := Ideal)
    (k0_pay8 (k0_pay2 v0 v1) (k0_pay3 v1) (k0_pay4 v20) v35)
    (k0_pay9 (k0_pay2 v0 v1) (k0_pay3 v1) (k0_pay4 v20) v35)
    (k0_pay10 (k0_pay2 v0 v1) (k0_pay3 v1) (k0_pay4 v20) v35)
    (k0_pay11 (k0_pay2 v0 v1) (k0_pay3 v1) (k0_pay4 v20) v35)

section
variable (𝒱 : Variants) (c : Dev nD) (bd : Option 𝒱.V) (i : grid0.Coords)
  (arg1 : Memref sig .tc .vmem S8x32x128 .f32) (harg1 : arg1.IsWhole) (arg2 : Memref sig .tc .vmem S8x32 .f32) (harg2 : arg2.IsWhole)
  (arg3 : Memref sig .tc .vmem S64x256x128 .bf16) (harg3 : arg3.IsWhole) (arg4 : Memref sig .tc .vmem S8x256 .f32) (harg4 : arg4.IsWhole)
  (arg5 : Memref sig .tc .vmem S8x64 .f32) (harg5 : arg5.IsWhole) (arg6 : Memref sig .tc .vmem S64x8 .f32) (harg6 : arg6.IsWhole)
  (v0 : Vec Ideal S8x32x128 .f32) (v1 : Vec Ideal S8x32 .f32) (v20 : Vec Ideal S8x256 .f32)

/-- Trip `k` writes one piece: rows `32k … 32k+31` of the scratch, holding `tripPay` of the chunk it loaded. -/
theorem tripL_eq (X : BufTy.Contents (Elt Ideal) arg3.view.ty) (k : Fin k0_t1_loop.trips) :
    tripL_k0_t1 (F := Ideal) 𝒱 c bd i arg1 harg1 arg2 harg2 arg3 harg3 arg4 harg4 arg5 harg5 arg6 harg6 v0 v1 v20 X k
      = [⟨Rect.unit (s := S64x8) (k0_off2 k) S32x8.size (k0_off2_inb k),
          tripPay v0 v1 v20 (View.readAt (Elt Ideal) arg3.view (Rect.unit (s := S64x256x128) (k0_off1 k) S32x256x128.size (k0_off1_inb k)).toLoadRect X)⟩] := by
  unfold tripL_k0_t1 trip_k0_t1
  rfl

/-- The loop makes two trips, so its pieces are trip 1's then trip 0's. -/
theorem pb_trips (X : BufTy.Contents (Elt Ideal) arg3.view.ty) (h0 : 0 < k0_t1_loop.trips) (h1 : 1 < k0_t1_loop.trips) :
    pb_k0_t1 (F := Ideal) 𝒱 c bd i arg1 harg1 arg2 harg2 arg3 harg3 arg4 harg4 arg5 harg5 arg6 harg6 v0 v1 v20 X
        (Scf.trips k0_t1_loop.lb k0_t1_loop.ub k0_t1_loop.st)
      = tripL_k0_t1 (F := Ideal) 𝒱 c bd i arg1 harg1 arg2 harg2 arg3 harg3 arg4 harg4 arg5 harg5 arg6 harg6 v0 v1 v20 X ⟨1, h1⟩
        ++ (tripL_k0_t1 (F := Ideal) 𝒱 c bd i arg1 harg1 arg2 harg2 arg3 harg3 arg4 harg4 arg5 harg5 arg6 harg6 v0 v1 v20 X ⟨0, h0⟩ ++ []) := by
  have e1 := pb_k0_t1_succ (F := Ideal) 𝒱 c bd i arg1 harg1 arg2 harg2 arg3 harg3 arg4 harg4 arg5 harg5 arg6 harg6 v0 v1 v20 X ⟨1, h1⟩
  have e0 := pb_k0_t1_succ (F := Ideal) 𝒱 c bd i arg1 harg1 arg2 harg2 arg3 harg3 arg4 harg4 arg5 harg5 arg6 harg6 v0 v1 v20 X ⟨0, h0⟩
  exact e1.trans (congrArg _ e0)

/-- Entry `(cc, p)` of what the scratch is meant to hold: the kernel's score of query batch `p` of the block
    against document batch `cc` of the whole (normalised) document array `x2`. -/
def scratchAt (x2 : Vec Ideal S64x256x128 .bf16) (cc : Fin 64) (p : Fin 8) : EReal :=
  Chamfer.kerP (fun t d => v0 (ix3 p t d)) (fun t => v1 (ix2 p t)) (fun s d => x2 (ix3 cc s d)) (fun s => v20 (ix2 p s))

/-- … as a function of the scratch's index. -/
def scratchFn (x2 : Vec Ideal S64x256x128 .bf16) : S64x8.Idx → EReal := fun y => scratchAt v0 v1 v20 x2 (y 0) (y 1)

/-- Trip `k`'s piece is the block of that function its rectangle names: row `lr` of the piece is document batch
    `32k + lr`, which is row `lr` of the chunk the trip loaded. -/
theorem piece_ok (x2 : Vec Ideal S64x256x128 .bf16) (k : Fin k0_t1_loop.trips) (x : S32x8.Idx) :
    tripPay v0 v1 v20 (View.readAt (Elt Ideal) arg3.view (Rect.unit (s := S64x256x128) (k0_off1 k) S32x256x128.size (k0_off1_inb k)).toLoadRect (harg3.unread x2)) x
      = scratchFn v0 v1 v20 x2 ((Rect.unit (s := S64x8) (k0_off2 k) S32x8.size (k0_off2_inb k)).emb x) := by
  obtain ⟨lr, q, rfl⟩ : ∃ (lr : Fin 32) (q : Fin 8), x = ix2 lr q := ⟨x 0, x 1, eq_ix2 x⟩
  refine (Chamfer.KerPay.trip_at v0 v1 v20 _ lr q).trans ?_
  have h1 := k0_off1_eq k
  have h2 := k0_off2_eq k
  -- the piece's column is the query batch itself
  have hq : ((Rect.unit (s := S64x8) (k0_off2 k) S32x8.size (k0_off2_inb k)).emb (ix2 lr q)) 1 = q := by
    apply Fin.ext
    show (k0_off2 k) 1 + 1 * (q : ℕ) = q
    rw [h2]; simp
  -- row `lr` of the loaded chunk is document batch `32k + lr` of the whole array, the piece's row
  have hc : ∀ (s : Fin 256) (d : Fin 128),
      View.readAt (Elt Ideal) arg3.view (Rect.unit (s := S64x256x128) (k0_off1 k) S32x256x128.size (k0_off1_inb k)).toLoadRect
          (harg3.unread x2) (ix3 lr s d)
        = x2 (ix3 (((Rect.unit (s := S64x8) (k0_off2 k) S32x8.size (k0_off2_inb k)).emb (ix2 lr q)) 0) s d) := by
    intro s d
    rw [View.readAt_eq_ld, harg3.read_unread]
    show x2 ((Rect.unit (s := S64x256x128) (k0_off1 k) S32x256x128.size (k0_off1_inb k)).emb (ix3 lr s d)) = _
    refine congrArg x2 (funext fun a => Fin.ext ?_)
    match a with
    | ⟨0, _⟩ =>
      show (k0_off1 k) 0 + 1 * (lr : ℕ) = (k0_off2 k) 0 + 1 * (lr : ℕ)
      rw [h1, h2]; rfl
    | ⟨1, _⟩ =>
      show (k0_off1 k) 1 + 1 * (s : ℕ) = (s : ℕ)
      rw [h1]; simp
    | ⟨2, _⟩ =>
      show (k0_off1 k) 2 + 1 * (d : ℕ) = (d : ℕ)
      rw [h1]; simp
  unfold scratchFn scratchAt
  rw [hq]
  exact congrArg (fun Y => Chamfer.kerP _ _ Y _) (funext fun s => funext fun d => hc s d)

/-- THE SCRATCH AFTER THE LOOP: the canon of the loop's pieces at `(cc, p)` is the score of query batch `p` of
    the block against document batch `cc` — every piece is a block of that one function, and the two pieces tile
    the 64 rows in blocks of 32. -/
theorem canon_pb_at (x2 : Vec Ideal S64x256x128 .bf16) (cc : Fin 64) (p : Fin 8) :
    View.canon (pb_k0_t1 (F := Ideal) 𝒱 c bd i arg1 harg1 arg2 harg2 arg3 harg3 arg4 harg4 arg5 harg5 arg6 harg6 v0 v1 v20 (harg3.unread x2)
        (Scf.trips k0_t1_loop.lb k0_t1_loop.ub k0_t1_loop.st)) (ix2 cc p)
      = scratchAt v0 v1 v20 x2 cc p := by
  have h0 : 0 < k0_t1_loop.trips := by decide
  have h1 : 1 < k0_t1_loop.trips := by decide
  have hcov := View.cover_of_tiledL (s := S64x8)
    (pb_k0_t1 (F := Ideal) 𝒱 c bd i arg1 harg1 arg2 harg2 arg3 harg3 arg4 harg4 arg5 harg5 arg6 harg6 v0 v1 v20 (harg3.unread x2)
      (Scf.trips k0_t1_loop.lb k0_t1_loop.ub k0_t1_loop.st)) S32x8.size (by sl_kernel_rfl) (ix2 cc p)
  refine (View.canon_apply_of_pieces (scratchFn v0 v1 v20 x2) _ ?_ (ix2 cc p) hcov).trans rfl
  intro pc hpc x
  rw [pb_trips 𝒱 c bd i arg1 harg1 arg2 harg2 arg3 harg3 arg4 harg4 arg5 harg5 arg6 harg6 v0 v1 v20 _ h0 h1, tripL_eq, tripL_eq] at hpc
  simp only [List.append_nil, List.singleton_append, List.mem_cons, List.mem_singleton, List.not_mem_nil, or_false] at hpc
  rcases hpc with rfl | rfl
  · exact piece_ok arg3 harg3 v0 v1 v20 x2 ⟨1, h1⟩ x
  · exact piece_ok arg3 harg3 v0 v1 v20 x2 ⟨0, h0⟩ x

end

end Chamfer.KerTrip

end
-- ==== Proof.Args.lean ====
/-
  The four argument arrays of both programs, read as the functions of plain coordinates the specification is
  stated over: the embeddings entry by entry, the integer masks as the extended reals their words denote when
  converted to a float (the signed integer, exactly).
-/
import Idealize.ShloMosaic.Lib.ValueIdx
import Idealize.ShloMosaic.PureOps.Ideal

noncomputable section

namespace Chamfer

open Idealize.ShloMosaic Idealize.ShloMosaic.ValueIdx

/-- Query embeddings: entry `(q, t, d)`. -/
def Qof (x0 : FVec Ideal ⟨3, ![64, 32, 128]⟩ .f32) (q : Fin 64) (t : Fin 32) (d : Fin 128) : EReal := x0 (ix3 q t d)

/-- Document embeddings: entry `(c, s, d)`. -/
def Dof (x2 : FVec Ideal ⟨3, ![64, 256, 128]⟩ .f32) (c : Fin 64) (s : Fin 256) (d : Fin 128) : EReal := x2 (ix3 c s d)

/-- The query mask's word at `(q, t)`, as the real number of the signed integer it spells. -/
def Aof (x1 : IVec ⟨2, ![64, 32]⟩ 32) (q : Fin 64) (t : Fin 32) : EReal := (((x1 (ix2 q t)).toInt : ℝ) : EReal)

/-- The document mask's word at `(c, s)`, likewise. -/
def Bof (x3 : IVec ⟨2, ![64, 256]⟩ 32) (c : Fin 64) (s : Fin 256) : EReal := (((x3 (ix2 c s)).toInt : ℝ) : EReal)

/-- Converting a signed word to a float is, at the exact reading, that integer. -/
theorem sitofp_word (b : BitVec 32) : FloatOps.sitofp (F := Ideal) .f32 b = (((b.toInt : ℝ)) : EReal) := rfl

/-- Converting an unsigned word to a float is, at the exact reading, that natural number. -/
theorem uitofp_bit (b : BitVec 1) : FloatOps.uitofp (F := Ideal) .f32 b = (((b.toNat : ℝ)) : EReal) := rfl

end Chamfer

end
-- ==== Proof.KerHost.lean ====
/-
  What the kernel's program computes on the host before its one region, read at an index: the two masks
  converted to floats, and the document embeddings normalised and masked.
-/
import proofs.«431161_j66718021976303_3_alg».proof.Proof.Gen.KernelIdeal.Frame.Runs
import proofs.«431161_j66718021976303_3_alg».proof.Proof.Spec
import proofs.«431161_j66718021976303_3_alg».proof.Proof.Args
import Idealize.ShloMosaic.Lib.StableHlo.Run
import Idealize.ShloMosaic.Lib.ValueIdx
import Idealize.ShloMosaic.Lib.Pipeline.Value
import Idealize.ShloMosaic.PureOps.Ideal.Laws

noncomputable section

namespace Chamfer.KerHost

open Idealize.ShloMosaic Idealize.ShloMosaic.TcCoe Idealize.ShloMosaic.ValueIdx Cert.KernelIdeal Cert.KernelIdeal.Gen

/-! ## The three layout steps of the chain, read at coordinates

The chain moves between the shapes `[64, 256]`, `[64, 256, 1]` and `[64, 256, 128]` by three broadcasts. Each, read at
an index given by its coordinates, is its operand at the evident coordinates: a unit axis reads coordinate `0`, every
other axis its own coordinate. -/

/-- A `[64, 256, 1]` array repeated along its unit axis. -/
def rep {α : Type} (y : S64x256x1.Idx → α) : S64x256x128.Idx → α :=
  broadcastInDim S64x256x128 ![0, 1, 2] Gen.bcast_S64x256x1_S64x256x128_0_1_2 y

/-- A `[64, 256]` array given a trailing unit axis. -/
def col {α : Type} (y : S64x256.Idx → α) : S64x256x1.Idx → α :=
  broadcastInDim S64x256x1 ![0, 1] Gen.bcast_S64x256_S64x256x1_0_1 y

/-- A scalar spread over `[64, 256, 1]`. -/
def splat {α : Type} (y : S_.Idx → α) : S64x256x1.Idx → α :=
  broadcastInDim S64x256x1 ![] Gen.bcast_S_S64x256x1 y

/-- At `(c, s, d)` the repeated array is the array at `(c, s, 0)`: the last axis of the operand has size one. -/
theorem rep_at {α : Type} (y : S64x256x1.Idx → α) (cc : Fin 64) (s : Fin 256) (d : Fin 128) :
    rep y (ix3 cc s d) = y (ix3 cc s (0 : Fin 1)) :=
  broadcastInDim_apply _ Gen.bcast_S64x256x1_S64x256x128_0_1_2 y (ix3 cc s d) (ix3 cc s (0 : Fin 1)) (fun a => match a with
    | ⟨0, _⟩ => by show cc.val = if (64 : Nat) = 1 then 0 else cc.val; rw [if_neg (by decide)]
    | ⟨1, _⟩ => by show s.val = if (256 : Nat) = 1 then 0 else s.val; rw [if_neg (by decide)]
    | ⟨2, _⟩ => by show 0 = if (1 : Nat) = 1 then 0 else d.val; rw [if_pos rfl])

/-- At `(c, s, z)` the array with the new unit axis is the array at `(c, s)`. -/
theorem col_at {α : Type} (y : S64x256.Idx → α) (cc : Fin 64) (s : Fin 256) (z : Fin 1) :
    col y (ix3 cc s z) = y (ix2 cc s) :=
  broadcastInDim_apply _ Gen.bcast_S64x256_S64x256x1_0_1 y (ix3 cc s z) (ix2 cc s) (fun a => match a with
    | ⟨0, _⟩ => by show cc.val = if (64 : Nat) = 1 then 0 else cc.val; rw [if_neg (by decide)]
    | ⟨1, _⟩ => by show s.val = if (256 : Nat) = 1 then 0 else s.val; rw [if_neg (by decide)])

/-- The spread scalar is the scalar at every index: the operand has no axis to read a coordinate on. -/
theorem splat_at {α : Type} (y : S_.Idx → α) (j : S64x256x1.Idx) : splat y j = y ix0 :=
  broadcastInDim_apply _ Gen.bcast_S_S64x256x1 y j ix0 (fun a => a.elim0)

/-! ## The sum over the feature axis -/

/-- The host's sum of a `[64, 256, 128]` array over its last axis, started from the word of `0`, is at `(c, s)` the
    sum of the 128 entries `(c, s, k)`: at the exact reading the host's sum is the initial value plus the sum over the
    reduced axis, the initial value is `0`, and the index the reduction inserts `k` into is `(c, s, k)`. -/
theorem sum_feat_at (y : FVec Ideal S64x256x128 .f32) (cc : Fin 64) (s : Fin 256) :
    Host.reduceAdd y (constant (F := Ideal) S_ .f32 0x00000000#32) Gen.reducesTo_S64x256x128_S64x256_d2 Gen.h_S_ (ix2 cc s)
      = ∑ k : Fin 128, y (ix3 cc s k) := by
  simp only [Host.reduceAdd, Ideal.hostReduceAdd_def]
  rw [Ideal.hostReduceAdd_single Gen.reducesTo_S64x256x128_S64x256_d2 (by decide)]
  rw [constant_apply, Chamfer.ofBits_zero, zero_add]
  refine Finset.sum_congr rfl fun k _ => ?_
  exact congrArg y (funext fun a => Fin.ext (by match a with | ⟨0, _⟩ => rfl | ⟨1, _⟩ => rfl | ⟨2, _⟩ => rfl))

/-! ## The chain as one function of the two argument arrays -/

/-- The squared length of every document token: the sum over the features of the squares. -/
def ssq (x2 : FVec Ideal S64x256x128 .f32) : FVec Ideal S64x256 .f32 :=
  Host.reduceAdd (mulf x2 x2) (constant (F := Ideal) S_ .f32 0x00000000#32) Gen.reducesTo_S64x256x128_S64x256_d2 Gen.h_S_

/-- The guarded norm of every document token, with a trailing unit axis: the larger of the square root of the squared
    length and the guard. -/
def gnorm (x2 : FVec Ideal S64x256x128 .f32) : FVec Ideal S64x256x1 .f32 :=
  maximumf (Host.sqrt (col (ssq x2))) (splat (constant (F := Ideal) S_ .f32 0x2B8CBCCC#32))

/-- The document embeddings divided by their guarded norms, multiplied by the converted mask, and narrowed to bf16. -/
def hostD (x2 : FVec Ideal S64x256x128 .f32) (x3 : IVec S64x256 32) : FVec Ideal S64x256x128 .bf16 :=
  truncf .bf16 (mulf (Host.divf x2 (rep (gnorm x2))) (rep (col (sitofp (F := Ideal) .f32 x3)))) Gen.bitsLt_bf16_f32

/-- The squared length at `(c, s)`. -/
theorem ssq_at (x2 : FVec Ideal S64x256x128 .f32) (cc : Fin 64) (s : Fin 256) :
    ssq x2 (ix2 cc s) = ∑ k : Fin 128, x2 (ix3 cc s k) * x2 (ix3 cc s k) := by
  unfold ssq
  rw [sum_feat_at]
  rfl

/-- The guarded norm at `(c, s, z)` is the specification's guarded norm of token `(c, s)`. -/
theorem gnorm_at (x2 : FVec Ideal S64x256x128 .f32) (cc : Fin 64) (s : Fin 256) (z : Fin 1) :
    gnorm x2 (ix3 cc s z) = Chamfer.nrm (Chamfer.Dof x2 cc s) := by
  show max (Ideal.sqrt (col (ssq x2) (ix3 cc s z))) (splat (constant (F := Ideal) S_ .f32 0x2B8CBCCC#32) (ix3 cc s z)) = _
  rw [col_at, splat_at, ssq_at]
  rfl

/-- The chain at `(c, s, d)`: the entry divided by its token's guarded norm, times the token's mask value. The
    narrowing to bf16 changes nothing at the exact reading. -/
theorem hostD_at (x2 : FVec Ideal S64x256x128 .f32) (x3 : IVec S64x256 32) (cc : Fin 64) (s : Fin 256) (d : Fin 128) :
    hostD x2 x3 (ix3 cc s d) = Chamfer.dnrm (Chamfer.Dof x2 cc) (Chamfer.Bof x3 cc) s d := by
  show Ideal.div (x2 (ix3 cc s d)) (rep (gnorm x2) (ix3 cc s d)) * rep (col (sitofp (F := Ideal) .f32 x3)) (ix3 cc s d) = _
  rw [rep_at, rep_at, col_at, gnorm_at]
  rfl

/-! ## The buffers the region finds -/

variable (m : (ℓ : Loc nD τ sig) → Buf (Elt Ideal) ℓ) (c : Dev nD)

/-- The converted query mask the region finds. -/
theorem V_v0_at (q : Fin 64) (t : Fin 32) :
    (V m c main_v0 : S64x32.Idx → EReal) (ix2 q t) = Chamfer.Aof (m ((c : Thread nD τ).loc main_arg1)) q t := by
  have e : (V m c main_v0 : S64x32.Idx → EReal) = sitofp (F := Ideal) .f32 (m ((c : Thread nD τ).loc main_arg1)) := by
    dsimp only [Gen.V]
    simp only [Gen.hostOps0, Gen.hostOps0_1, Gen.hostOps0_2, List.flatten_cons, List.flatten_nil, List.append_nil,
      List.cons_append, List.nil_append]
    after_results
  rw [e]
  rfl

/-- The converted document mask the region finds. -/
theorem V_v1_at (cc : Fin 64) (s : Fin 256) :
    (V m c main_v1 : S64x256.Idx → EReal) (ix2 cc s) = Chamfer.Bof (m ((c : Thread nD τ).loc main_arg3)) cc s := by
  have e : (V m c main_v1 : S64x256.Idx → EReal) = sitofp (F := Ideal) .f32 (m ((c : Thread nD τ).loc main_arg3)) := by
    dsimp only [Gen.V]
    simp only [Gen.hostOps0, Gen.hostOps0_1, Gen.hostOps0_2, List.flatten_cons, List.flatten_nil, List.append_nil,
      List.cons_append, List.nil_append]
    after_results
  rw [e]
  rfl

/-- The document embeddings the region finds: each token divided by its guarded norm and multiplied by its own mask. -/
theorem V_v10_at (cc : Fin 64) (s : Fin 256) (d : Fin 128) :
    (V m c main_v10 : S64x256x128.Idx → EReal) (ix3 cc s d)
      = Chamfer.dnrm (Chamfer.Dof (m ((c : Thread nD τ).loc main_arg2)) cc) (Chamfer.Bof (m ((c : Thread nD τ).loc main_arg3)) cc) s d := by
  have e : (V m c main_v10 : S64x256x128.Idx → EReal)
      = hostD (m ((c : Thread nD τ).loc main_arg2)) (m ((c : Thread nD τ).loc main_arg3)) := by
    dsimp only [Gen.V]
    simp only [Gen.hostOps0, Gen.hostOps0_1, Gen.hostOps0_2, List.flatten_cons, List.flatten_nil, List.append_nil,
      List.cons_append, List.nil_append]
    after_results
    rfl
  rw [e]
  exact hostD_at _ _ cc s d

end Chamfer.KerHost

end
-- ==== Proof.KerOut.lean ====
/-
  The kernel's result array after its run, as one function of the argument arrays.

  At each of the 8 grid points the body fills the 64 × 8 scratch with the scores of the point's 8 query batches
  against all 64 document batches and writes its transpose as rows `8t … 8t+7` of the 64 × 64 result. The 8 blocks
  tile the result, so entry `(q, c)` ends as the kernel's score of query batch `q` against document batch `c`,
  over the arrays as the region finds them: the query embeddings and the two converted masks, and the document
  embeddings already normalised and masked on the host.
-/
import proofs.«431161_j66718021976303_3_alg».proof.Proof.IdealValue
import proofs.«431161_j66718021976303_3_alg».proof.Proof.KerTrip
import proofs.«431161_j66718021976303_3_alg».proof.Proof.KerHost
import Idealize.ShloMosaic.Lib.Pipeline.Value
import Idealize.ShloMosaic.Lib.ValueIdx

set_option maxRecDepth 16384

noncomputable section

namespace Chamfer.KerOut

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.GenP Cert.KernelIdeal.ValueP
open Chamfer.KerTrip

theorem hz2 : (![0, 0] : Fin 2 → Nat) = fun _ => 0 := funext fun a => by fin_cases a <;> rfl
theorem hz3 : (![0, 0, 0] : Fin 3 → Nat) = fun _ => 0 := funext fun a => by fin_cases a <;> rfl

/-- THE OUTPUT BLOCK of one grid point, at row `p` (a query batch of the block) and column `cc` (a document
    batch): the scratch after the loop at `(cc, p)`, the block being the scratch transposed. -/
theorem out_at (c : Dev nD) (i : grid0.Coords) (arg1 : Memref sig .tc .vmem S8x32x128 .f32) (harg1 : arg1.IsWhole)
    (arg2 : Memref sig .tc .vmem S8x32 .f32) (harg2 : arg2.IsWhole) (arg3 : Memref sig .tc .vmem S64x256x128 .bf16) (harg3 : arg3.IsWhole)
    (arg4 : Memref sig .tc .vmem S8x256 .f32) (harg4 : arg4.IsWhole) (arg5 : Memref sig .tc .vmem S8x64 .f32) (harg5 : arg5.IsWhole)
    (arg6 : Memref sig .tc .vmem S64x8 .f32) (harg6 : arg6.IsWhole)
    (x0 : Vec Ideal S8x32x128 .f32) (x1 : Vec Ideal S8x32 .f32) (x2 : Vec Ideal S64x256x128 .bf16) (x3 : Vec Ideal S8x256 .f32)
    (p : Fin 8) (cc : Fin 64) :
    out0_A_4 (F := Ideal) c i arg1 harg1 arg2 harg2 arg3 harg3 arg4 harg4 arg5 harg5 arg6 harg6 x0 x1 x2 x3 (ix2 p cc) = scratchAt x0 x1 x3 x2 cc p := by
  unfold out0_A_4
  rw [View.read_writes_eq_canon _ _ _ (fun y => cover0_A_4 c i arg1 harg1 arg2 harg2 arg3 harg3 arg4 harg4 arg5 harg5 arg6 harg6 x0 x1 x2 x3 y)]
  unfold kernelRun0_A
  dsimp only
  -- one store covers the block: the block is its payload, the scratch transposed
  rw [View.canon_unit_zero (S := S8x64) hz2]
  unfold k0_pay6
  dsimp only
  rw [transpose_apply [1, 0] _ transposes_S64x8_p1_0_S8x64 (ix2 p cc) (ix2 cc p)
    (fun b => by match b with | ⟨0, _⟩ => rfl | ⟨1, _⟩ => rfl)]
  -- the scratch is read whole, and so were the three input blocks the loop's pieces are stated over
  rw [View.ld_unit_zero (S := S64x8) hz2]
  rw [View.readAt_eq_ld arg1.view, View.readAt_eq_ld arg2.view, View.readAt_eq_ld arg4.view,
    harg1.read_unread, harg2.read_unread, harg4.read_unread,
    View.ld_unit_zero (S := S8x32x128) hz3, View.ld_unit_zero (S := S8x32) hz2, View.ld_unit_zero (S := S8x256) hz2]
  exact canon_pb_at Variants.none c none i arg1 harg1 arg2 harg2 arg3 harg3 arg4 harg4 arg5 harg5 arg6 harg6 x0 x1 x3 x2 cc p

variable (m : (ℓ : Loc nD τ sig) → Buf (Elt Ideal) ℓ) (ρ : Dev nD → PrngReg)

/-- THE RESULT as one function of the arrays as the region finds them: entry `(q, cc)` is the score of query batch
    `q` (tokens from the query embeddings, masks from the converted query mask and from row `q` of the converted
    document mask) against document batch `cc` of the host-normalised document embeddings. -/
def Gout (c : Dev nD) : S64x64.Idx → EReal := fun i =>
  Chamfer.kerP (fun t d => (V m c main_arg0 : S64x32x128.Idx → EReal) (ix3 (i 0) t d))
    (fun t => (V m c main_v0 : S64x32.Idx → EReal) (ix2 (i 0) t))
    (fun s d => (V m c main_v10 : S64x256x128.Idx → EReal) (ix3 (i 1) s d))
    (fun s => (V m c main_v1 : S64x256.Idx → EReal) (ix2 (i 0) s))

/-- The printed index maps, decided over the 8 grid points: the three row-blocked inputs move with the output's
    row block, the document array is staged whole, and every other block index is 0. -/
theorem idx_facts : ∀ t : Fin cfg0.N,
    win0_0.index t (0 : Fin 3) = win0_4.index t (0 : Fin 2) ∧ win0_0.index t (1 : Fin 3) = 0 ∧ win0_0.index t (2 : Fin 3) = 0
    ∧ win0_1.index t (0 : Fin 2) = win0_4.index t (0 : Fin 2) ∧ win0_1.index t (1 : Fin 2) = 0
    ∧ win0_2.index t (0 : Fin 3) = 0 ∧ win0_2.index t (1 : Fin 3) = 0 ∧ win0_2.index t (2 : Fin 3) = 0
    ∧ win0_3.index t (0 : Fin 2) = win0_4.index t (0 : Fin 2) ∧ win0_3.index t (1 : Fin 2) = 0
    ∧ win0_4.index t (1 : Fin 2) = 0 ∧ win0_4.index t (0 : Fin 2) ≤ 7 :=
  (by decide +kernel : ∀ t : Fin grid0.N, _)

/-- Every row block of the result is some point's. -/
theorem idx_onto : ∀ q0 : Fin 8, ∃ t : Fin cfg0.N, win0_4.index t = ![q0.val, 0] :=
  (by decide +kernel : ∀ q0 : Fin 8, ∃ t : Fin grid0.N, win0_4.index t = ![q0.val, 0])

/-- WHAT POINT `t` WRITES BACK is block `t` of `Gout`. -/
theorem flushed4_eq (c : Dev nD) (t : Fin cfg0.N) :
    (dats m 0 c).flushed 4 t = ((cfg0.win 4).blk t).view.read (Elt Ideal) (Gout m c) := by
  rw [flushed4_A]
  obtain ⟨e00, e01, e02, e10, e11, e20, e21, e22, e30, e31, e41, e4⟩ := idx_facts t
  refine funext fun (j : S8x64.Idx) => ?_
  have key : ∀ (p : Fin 8) (cc : Fin 64),
      out0_A_4 (F := Ideal) c (grid0.coords t) (ms0_0 t) (hs0_0 t) (ms0_1 t) (hs0_1 t) (ms0_2 t) (hs0_2 t) (ms0_3 t) (hs0_3 t)
          (ms0_4 t) (hs0_4 t) scM0_0 (Memref.isWhole_whole _) (iblk m c 0 t) (iblk m c 1 t) (iblk m c 2 t) (iblk m c 3 t) (ix2 p cc)
        = Gout m c (((cfg0.win 4).blk t).view.emb (ix2 p cc)) := by
    intro p cc
    rw [out_at]
    unfold scratchAt Gout
    -- each input block, read at a local index, is its array at the output block's row (and the same inner coordinates)
    have a0 : ∀ (t' : Fin 32) (d : Fin 128), (iblk m c 0 t) (ix3 p t' d)
        = (V m c main_arg0 : S64x32x128.Idx → EReal) (ix3 ((((cfg0.win 4).blk t).view.emb (ix2 p cc)) 0) t' d) := by
      intro t' d
      show (V m c main_arg0 : S64x32x128.Idx → EReal) (((cfg0.win 0).blk t).view.emb (ix3 p t' d)) = _
      refine congrArg _ (funext fun a => Fin.ext ?_)
      match a with
      | ⟨0, _⟩ => show win0_0.index t (0 : Fin 3) * 8 + 1 * (p : ℕ) = win0_4.index t (0 : Fin 2) * 8 + 1 * (p : ℕ); omega
      | ⟨1, _⟩ => show win0_0.index t (1 : Fin 3) * 32 + 1 * (t' : ℕ) = (t' : ℕ); omega
      | ⟨2, _⟩ => show win0_0.index t (2 : Fin 3) * 128 + 1 * (d : ℕ) = (d : ℕ); omega
    have a1 : ∀ (t' : Fin 32), (iblk m c 1 t) (ix2 p t')
        = (V m c main_v0 : S64x32.Idx → EReal) (ix2 ((((cfg0.win 4).blk t).view.emb (ix2 p cc)) 0) t') := by
      intro t'
      show (V m c main_v0 : S64x32.Idx → EReal) (((cfg0.win 1).blk t).view.emb (ix2 p t')) = _
      refine congrArg _ (funext fun a => Fin.ext ?_)
      match a with
      | ⟨0, _⟩ => show win0_1.index t (0 : Fin 2) * 8 + 1 * (p : ℕ) = win0_4.index t (0 : Fin 2) * 8 + 1 * (p : ℕ); omega
      | ⟨1, _⟩ => show win0_1.index t (1 : Fin 2) * 32 + 1 * (t' : ℕ) = (t' : ℕ); omega
    have a2 : ∀ (s : Fin 256) (d : Fin 128), (iblk m c 2 t) (ix3 cc s d)
        = (V m c main_v10 : S64x256x128.Idx → EReal) (ix3 ((((cfg0.win 4).blk t).view.emb (ix2 p cc)) 1) s d) := by
      intro s d
      show (V m c main_v10 : S64x256x128.Idx → EReal) (((cfg0.win 2).blk t).view.emb (ix3 cc s d)) = _
      refine congrArg _ (funext fun a => Fin.ext ?_)
      match a with
      | ⟨0, _⟩ => show win0_2.index t (0 : Fin 3) * 64 + 1 * (cc : ℕ) = win0_4.index t (1 : Fin 2) * 64 + 1 * (cc : ℕ); omega
      | ⟨1, _⟩ => show win0_2.index t (1 : Fin 3) * 256 + 1 * (s : ℕ) = (s : ℕ); omega
      | ⟨2, _⟩ => show win0_2.index t (2 : Fin 3) * 128 + 1 * (d : ℕ) = (d : ℕ); omega
    have a3 : ∀ (s : Fin 256), (iblk m c 3 t) (ix2 p s)
        = (V m c main_v1 : S64x256.Idx → EReal) (ix2 ((((cfg0.win 4).blk t).view.emb (ix2 p cc)) 0) s) := by
      intro s
      show (V m c main_v1 : S64x256.Idx → EReal) (((cfg0.win 3).blk t).view.emb (ix2 p s)) = _
      refine congrArg _ (funext fun a => Fin.ext ?_)
      match a with
      | ⟨0, _⟩ => show win0_3.index t (0 : Fin 2) * 8 + 1 * (p : ℕ) = win0_4.index t (0 : Fin 2) * 8 + 1 * (p : ℕ); omega
      | ⟨1, _⟩ => show win0_3.index t (1 : Fin 2) * 256 + 1 * (s : ℕ) = (s : ℕ); omega
    exact congr (congr (congr (congrArg Chamfer.kerP (funext fun t' => funext fun d => a0 t' d)) (funext a1))
      (funext fun s => funext fun d => a2 s d)) (funext a3)
  obtain ⟨p, cc, rfl⟩ : ∃ (p : Fin 8) (cc : Fin 64), j = ix2 p cc := ⟨j 0, j 1, eq_ix2 j⟩
  exact key p cc

/-- An index of the result is in point `t`'s block iff each coordinate is in the block's range on its axis. -/
theorem mem_blk4 (t : Fin cfg0.N) (i : S64x64.Idx) :
    i ∈ ((cfg0.win 4).blk t).view.set ↔ ∀ a : Fin 2, win0_4.index t a * S8x64.size a ≤ (i a).val ∧ (i a).val < win0_4.index t a * S8x64.size a + S8x64.size a := by
  show i ∈ ((View.whole main_v11).slice (win0_4.rect t)).set ↔ _
  rw [View.set_slice_whole, Rect.mem_set_unit]
  exact Iff.rfl

/-- The 8 row blocks cover the result: row `r` is in the block of the point with block index `r / 8`. -/
theorem cover4 (i : S64x64.Idx) : ∃ t : Fin cfg0.N, (cfg0.win 4).flush t = true ∧ i ∈ ((cfg0.win 4).blk t).view.set := by
  have hi0 : (i 0).val < 64 := (i 0).isLt
  have hi1 : (i 1).val < 64 := (i 1).isLt
  obtain ⟨t, ht⟩ := idx_onto ⟨(i 0).val / 8, by omega⟩
  have q0 : win0_4.index t (0 : Fin 2) = (i 0).val / 8 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 64 ≤ (i 1).val ∧ (i 1).val < win0_4.index t (1 : Fin 2) * 64 + 64; omega

/-- THE RESULT ARRAY after the run is `Gout`. -/
theorem final4 (c : Dev nD) : (dats m 0 c).arrAt 4 cfg0.N = Gout m c :=
  (dats m 0 c).arrAt_eq_of_cover 4 (Gout m c) (fun t _ => flushed4_eq m c t) (cover4)

/-- THE KERNEL'S RUN, read: every weakly fair execution terminates with the result array at `Gout` and the
    arguments unchanged. -/
theorem run : θ_run defs (onTc (τ := τ) (main (F := Ideal))) ⟨m, fun _ => 0, ρ⟩ fun r => ∀ c : Dev nD,
      r.2.mem ((c : Thread nD τ).loc main_v11) = Gout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

/-- … and `Gout` over the ARGUMENT arrays: the query embeddings are as launched, the converted masks and the
    normalised document embeddings are what the host operations before the region computed. -/
theorem Gout_at (c : Dev nD) (q cc : Fin 64) :
    Gout m c (ix2 q cc)
      = Chamfer.kerG (Chamfer.Qof (m ((c : Thread nD τ).loc main_arg0))) (Chamfer.Aof (m ((c : Thread nD τ).loc main_arg1)))
          (Chamfer.Dof (m ((c : Thread nD τ).loc main_arg2))) (Chamfer.Bof (m ((c : Thread nD τ).loc main_arg3))) q cc := by
  unfold Gout Chamfer.kerG
  have b0 : (fun (t : Fin 32) (d : Fin 128) => (V m c main_arg0 : S64x32x128.Idx → EReal) (ix3 q t d))
      = Chamfer.Qof (m ((c : Thread nD τ).loc main_arg0)) q := by
    funext t d; rw [V_main_arg0]; rfl
  have b1 : (fun (t : Fin 32) => (V m c main_v0 : S64x32.Idx → EReal) (ix2 q t))
      = Chamfer.Aof (m ((c : Thread nD τ).loc main_arg1)) q := funext fun t => Chamfer.KerHost.V_v0_at m c q t
  have b2 : (fun (s : Fin 256) (d : Fin 128) => (V m c main_v10 : S64x256x128.Idx → EReal) (ix3 cc s d))
      = Chamfer.dnrm (Chamfer.Dof (m ((c : Thread nD τ).loc main_arg2)) cc) (Chamfer.Bof (m ((c : Thread nD τ).loc main_arg3)) cc) :=
    funext fun s => funext fun d => Chamfer.KerHost.V_v10_at m c cc s d
  have b3 : (fun (s : Fin 256) => (V m c main_v1 : S64x256.Idx → EReal) (ix2 q s))
      = Chamfer.Bof (m ((c : Thread nD τ).loc main_arg3)) q := funext fun s => Chamfer.KerHost.V_v1_at m c q s
  exact congr (congr (congr (congrArg Chamfer.kerP b0) b1) b2) b3

end Chamfer.KerOut

end
-- ==== Proof.RefBridge.lean ====
/-
  The reference's last stage, read at one result index, is the specification's reference function of the arguments.

  The reference is a straight line of elementwise operations, layout changes, sums and two maxima. Each lemma below
  reads one named intermediate array at explicit coordinates and identifies it with the matching piece of the
  specification: the guarded norms, the normalised and masked token vectors, their inner products, the product of the
  two mask rows of the query's batch, the hidden similarities, their maxima along either token axis, the indicator
  and the kept value of each maximum, the two averages, and the halved total.
-/
import proofs.«431161_j66718021976303_3_alg».proof.Proof.RefRun
import proofs.«431161_j66718021976303_3_alg».proof.Proof.RefRead
import proofs.«431161_j66718021976303_3_alg».proof.Proof.Spec
import proofs.«431161_j66718021976303_3_alg».proof.Proof.Args
import Idealize.ShloMosaic.PureOps.Reduce
import Idealize.ShloMosaic.PureOps.Ideal.Laws

noncomputable section

namespace Chamfer.RefBridge

open Idealize.ShloMosaic Idealize.ShloMosaic.ValueIdx Cert.ReferenceIdeal Cert.ReferenceIdeal.ReadP

/-! ## One-bit words -/

/-- A select on the bit of a decided proposition is the `if` on that proposition. -/
theorem select_ofBool {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- The bit of a decided proposition, converted to a float, is `1` where it holds and `0` where it does not. -/
theorem uitofp_ofBool (p : Prop) [Decidable p] :
    FloatOps.uitofp (F := Ideal) .f32 (BitVec.ofBool (decide p)) = if p then (1 : EReal) else 0 := by
  rw [Chamfer.uitofp_bit]
  by_cases h : p
  · rw [if_pos h, decide_eq_true h]; simp
  · rw [if_neg h, decide_eq_false h]; simp

/-- "Greater than" on extended reals, as a bit. -/
theorem cmpf_ogt (x y : EReal) :
    FloatOps.cmpf (F := Ideal) (φ := .f32) .ogt x y = BitVec.ofBool (decide (y < x)) := rfl

/-! ## Putting a coordinate back on a dropped axis -/

/-- Index `(q, c, t)` with `s` put back on the last axis is `(q, c, t, s)`. -/
theorem lift_last (h : S64x64x32x256.Reduces [3] S64x64x32) (q c : Fin 64) (t : Fin 32) (s : Fin 256) :
    h.lift (ix3 q c t) s = ix4 q c t s := by
  funext a; apply Fin.ext
  match a with | ⟨0, _⟩ => rfl | ⟨1, _⟩ => rfl | ⟨2, _⟩ => rfl | ⟨3, _⟩ => rfl

/-- Index `(q, c, s)` with `t` put back on the third axis is `(q, c, t, s)`. -/
theorem lift_third (h : S64x64x32x256.Reduces [2] S64x64x256) (q c : Fin 64) (s : Fin 256) (t : Fin 32) :
    h.lift (ix3 q c s) t = ix4 q c t s := by
  funext a; apply Fin.ext
  match a with | ⟨0, _⟩ => rfl | ⟨1, _⟩ => rfl | ⟨2, _⟩ => rfl | ⟨3, _⟩ => rfl

section
variable (x0 : (⟨S64x32x128, .f32⟩ : BufTy).Contents (Elt Ideal)) (x1 : (⟨S64x32, .i32⟩ : BufTy).Contents (Elt Ideal))
  (x2 : (⟨S64x256x128, .f32⟩ : BufTy).Contents (Elt Ideal)) (x3 : (⟨S64x256, .i32⟩ : BufTy).Contents (Elt Ideal))

/-! ## The normalised, masked token vectors -/

/-- The guarded norm of query token `(q, t)`: the square root of the sum of squares (the sum starts from `0`),
    against the guard. -/
theorem qnrm_at (q : Fin 64) (t : Fin 32) :
    val_main_v2 (F := Ideal) x0 (ix3 q t (0 : Fin 1)) = nrm (Qof x0 q t) := by
  rw [val_main_v2_apply, val_main_v0_apply, val_main_call0_v2_apply, val_main_call0_v1_apply,
    val_main_call0_cst_apply, val_main_v1_apply, val_main_cst_apply]
  simp only [Ideal.maximumf_def, Ideal.hostUnary_sqrt_def, Ideal.ofBits_def, Chamfer.ofBits_zero, zero_add]
  unfold nrm
  refine congrArg (fun z => max (Ideal.sqrt z) eps) (Finset.sum_congr rfl fun k _ => ?_)
  rw [val_main_call0_v0_apply, Ideal.mulf_def,
    show idx_main_call0_v1 (idx_main_call0_v2 (ix3 q t (0 : Fin 1))) k = ix3 q t k from
      funext fun a => Fin.ext (by match a with | ⟨0, _⟩ => rfl | ⟨1, _⟩ => rfl | ⟨2, _⟩ => rfl)]
  rfl

/-- The guarded norm of document token `(c, s)`. -/
theorem dnrm_at (c : Fin 64) (s : Fin 256) :
    val_main_v7 (F := Ideal) x2 (ix3 c s (0 : Fin 1)) = nrm (Dof x2 c s) := by
  rw [val_main_v7_apply, val_main_v5_apply, val_main_call1_v2_apply, val_main_call1_v1_apply,
    val_main_call1_cst_apply, val_main_v6_apply, val_main_cst_0_apply]
  simp only [Ideal.maximumf_def, Ideal.hostUnary_sqrt_def, Ideal.ofBits_def, Chamfer.ofBits_zero, zero_add]
  unfold nrm
  refine congrArg (fun z => max (Ideal.sqrt z) eps) (Finset.sum_congr rfl fun k _ => ?_)
  rw [val_main_call1_v0_apply, Ideal.mulf_def,
    show idx_main_call1_v1 (idx_main_call1_v2 (ix3 c s (0 : Fin 1))) k = ix3 c s k from
      funext fun a => Fin.ext (by match a with | ⟨0, _⟩ => rfl | ⟨1, _⟩ => rfl | ⟨2, _⟩ => rfl)]
  rfl

/-- The query mask as a column, at `(q, t, 0)`: the signed integer of the mask word. -/
theorem amask_at (q : Fin 64) (t : Fin 32) :
    val_main_v11 (F := Ideal) x1 (ix3 q t (0 : Fin 1)) = Aof x1 q t := by
  rw [val_main_v11_apply, val_main_v10_apply, Chamfer.sitofp_word,
    show idx_main_v11 (ix3 q t (0 : Fin 1)) = ix2 q t from
      funext fun a => Fin.ext (by match a with | ⟨0, _⟩ => rfl | ⟨1, _⟩ => rfl)]
  rfl

/-- The document mask as a column, at `(c, s, 0)`. -/
theorem bmask_at (c : Fin 64) (s : Fin 256) :
    val_main_v13 (F := Ideal) x3 (ix3 c s (0 : Fin 1)) = Bof x3 c s := by
  rw [val_main_v13_apply, val_main_v12_apply, Chamfer.sitofp_word,
    show idx_main_v13 (ix3 c s (0 : Fin 1)) = ix2 c s from
      funext fun a => Fin.ext (by match a with | ⟨0, _⟩ => rfl | ⟨1, _⟩ => rfl)]
  rfl

/-- Query token `(q, t)`, feature `d`: divided by its guarded norm and multiplied by its mask value. -/
theorem qvec_at (q : Fin 64) (t : Fin 32) (d : Fin 128) :
    val_main_v15 (F := Ideal) x0 x1 (ix3 q t d) = dnrm (Qof x0 q) (Aof x1 q) t d := by
  rw [val_main_v15_apply, val_main_v4_apply, val_main_v3_apply, val_main_v14_apply,
    show idx_main_v3 (ix3 q t d) = ix3 q t (0 : Fin 1) from
      funext fun a => Fin.ext (by match a with | ⟨0, _⟩ => rfl | ⟨1, _⟩ => rfl | ⟨2, _⟩ => rfl),
    show idx_main_v14 (ix3 q t d) = ix3 q t (0 : Fin 1) from
      funext fun a => Fin.ext (by match a with | ⟨0, _⟩ => rfl | ⟨1, _⟩ => rfl | ⟨2, _⟩ => rfl),
    qnrm_at, amask_at, Ideal.mulf_def, Ideal.hostDivf_def]
  rfl

/-- Document token `(c, s)`, feature `d`, likewise. -/
theorem dvec_at (c : Fin 64) (s : Fin 256) (d : Fin 128) :
    val_main_v17 (F := Ideal) x2 x3 (ix3 c s d) = dnrm (Dof x2 c) (Bof x3 c) s d := by
  rw [val_main_v17_apply, val_main_v9_apply, val_main_v8_apply, val_main_v16_apply,
    show idx_main_v8 (ix3 c s d) = ix3 c s (0 : Fin 1) from
      funext fun a => Fin.ext (by match a with | ⟨0, _⟩ => rfl | ⟨1, _⟩ => rfl | ⟨2, _⟩ => rfl),
    show idx_main_v16 (ix3 c s d) = ix3 c s (0 : Fin 1) from
      funext fun a => Fin.ext (by match a with | ⟨0, _⟩ => rfl | ⟨1, _⟩ => rfl | ⟨2, _⟩ => rfl),
    dnrm_at, bmask_at, Ideal.mulf_def, Ideal.hostDivf_def]
  rfl

/-! ## The similarities -/

/-- The inner product of query token `(q, t)` with document token `(c, s)`. The contraction has the document
    vector on the left; the factors commute. -/
theorem sim_at (q c : Fin 64) (t : Fin 32) (s : Fin 256) :
    val_main_v19 (F := Ideal) x0 x1 x2 x3 (ix4 q c t s)
      = simP (Qof x0 q) (Aof x1 q) (dnrm (Dof x2 c) (Bof x3 c)) t s := by
  rw [val_main_v19_apply, val_main_v18_apply]
  unfold simP
  refine Finset.sum_congr rfl fun k _ => ?_
  rw [show lidx_main_v18 (idx_main_v19 (ix4 q c t s)) k = ix3 c s k from
      funext fun a => Fin.ext (by match a with | ⟨0, _⟩ => rfl | ⟨1, _⟩ => rfl | ⟨2, _⟩ => rfl),
    show ridx_main_v18 (idx_main_v19 (ix4 q c t s)) k = ix3 q t k from
      funext fun a => Fin.ext (by match a with | ⟨0, _⟩ => rfl | ⟨1, _⟩ => rfl | ⟨2, _⟩ => rfl),
    qvec_at, dvec_at]
  exact mul_comm _ _

/-! ## The mask of a pair of tokens -/

/-- The document mask, reshaped, broadcast and transposed into a row, at `(q, 0, 0, s)`: the mask word of
    document token `s` of batch `q`. -/
theorem brow_at (q : Fin 64) (s : Fin 256) :
    val_main_v24 (F := Ideal) x3 (ix4 q (0 : Fin 1) (0 : Fin 1) s) = Bof x3 q s := by
  rw [val_main_v24_apply, val_main_v23_apply, val_main_v22_apply, val_main_v21_apply,
    show idx_main_v21 (idx_main_v22 (idx_main_v23 (idx_main_v24 (ix4 q (0 : Fin 1) (0 : Fin 1) s))))
        = ix3 q s (0 : Fin 1) from
      funext fun a => Fin.ext (by
        have hs : s.val < 256 := s.isLt
        match a with
        | ⟨0, _⟩ => show (q.val * 256 + s.val) / 256 = q.val; omega
        | ⟨1, _⟩ => show (q.val * 256 + s.val) / 1 % 256 = s.val; omega
        | ⟨2, _⟩ => rfl)]
  exact bmask_at x3 q s

/-- The product of the two mask values of a pair of tokens: the query's at `(q, t)` and the document mask's at
    `(q, s)`, the row of the query's own batch. -/
theorem pairmask_at (q : Fin 64) (t : Fin 32) (s : Fin 256) :
    val_main_v27 (F := Ideal) x1 x3 (ix4 q (0 : Fin 1) t s) = Aof x1 q t * Bof x3 q s := by
  rw [val_main_v27_apply, val_main_v25_apply, val_main_v20_apply, val_main_v26_apply,
    show idx_main_v20 (idx_main_v25 (ix4 q (0 : Fin 1) t s)) = ix3 q t (0 : Fin 1) from
      funext fun a => Fin.ext (by match a with | ⟨0, _⟩ => rfl | ⟨1, _⟩ => rfl | ⟨2, _⟩ => rfl),
    show idx_main_v26 (ix4 q (0 : Fin 1) t s) = ix4 q (0 : Fin 1) (0 : Fin 1) s from
      funext fun a => Fin.ext (by match a with | ⟨0, _⟩ => rfl | ⟨1, _⟩ => rfl | ⟨2, _⟩ => rfl | ⟨3, _⟩ => rfl),
    amask_at, brow_at, Ideal.mulf_def]

/-- The hidden similarities: the inner product where the product of the two mask values is positive, `-10⁹`
    elsewhere. -/
theorem masked_at (q c : Fin 64) (t : Fin 32) (s : Fin 256) :
    val_main_v30 (F := Ideal) x0 x1 x2 x3 (ix4 q c t s)
      = mRefP (Qof x0 q) (Aof x1 q) (dnrm (Dof x2 c) (Bof x3 c)) (Bof x3 q) t s := by
  rw [val_main_v30_apply, val_main_call2_v1_apply, val_main_v29_apply, val_main_v28_apply, val_main_cst_1_apply,
    val_main_call2_v2_apply, val_main_call2_v0_apply, val_main_cst_2_apply,
    show idx_main_call2_v1 (ix4 q c t s) = ix4 q (0 : Fin 1) t s from
      funext fun a => Fin.ext (by match a with | ⟨0, _⟩ => rfl | ⟨1, _⟩ => rfl | ⟨2, _⟩ => rfl | ⟨3, _⟩ => rfl),
    pairmask_at, sim_at, Ideal.ofBits_def, Ideal.ofBits_def, Chamfer.ofBits_zero, cmpf_ogt, select_ofBool]
  rfl

/-! ## The maxima along either token axis -/

/-- The maximum over document tokens, from `-∞`, of the hidden similarities of query token `t`. -/
theorem rowmax_at (q c : Fin 64) (t : Fin 32) :
    val_main_v31 (F := Ideal) x0 x1 x2 x3 (ix3 q c t)
      = vmax fun s => mRefP (Qof x0 q) (Aof x1 q) (dnrm (Dof x2 c) (Bof x3 c)) (Bof x3 q) t s := by
  have h : S64x64x32x256.Reduces [3] S64x64x32 := by decide
  unfold val_main_v31
  rw [Host.reduce_eq_fold_single FloatOps.maximumf _ _ _ h _]
  have hf : (val_main_v30 (F := Ideal) x0 x1 x2 x3 ∘ h.lift (ix3 q c t))
      = fun s : Fin 256 => mRefP (Qof x0 q) (Aof x1 q) (dnrm (Dof x2 c) (Bof x3 c)) (Bof x3 q) t s :=
    funext fun k => (congrArg (val_main_v30 (F := Ideal) x0 x1 x2 x3) (lift_last h q c t k)).trans
      (masked_at x0 x1 x2 x3 q c t k)
  rw [hf, val_main_cst_3_apply, Ideal.ofBits_def, Chamfer.ofBits_negInf]
  rfl

/-- The maximum over query tokens, from `-∞`, of the hidden similarities of document token `s`. -/
theorem colmax_at (q c : Fin 64) (s : Fin 256) :
    val_main_v43 (F := Ideal) x0 x1 x2 x3 (ix3 q c s)
      = vmax fun t => mRefP (Qof x0 q) (Aof x1 q) (dnrm (Dof x2 c) (Bof x3 c)) (Bof x3 q) t s := by
  have h : S64x64x32x256.Reduces [2] S64x64x256 := by decide
  unfold val_main_v43
  rw [Host.reduce_eq_fold_single FloatOps.maximumf _ _ _ h _]
  have hf : (val_main_v30 (F := Ideal) x0 x1 x2 x3 ∘ h.lift (ix3 q c s))
      = fun t : Fin 32 => mRefP (Qof x0 q) (Aof x1 q) (dnrm (Dof x2 c) (Bof x3 c)) (Bof x3 q) t s :=
    funext fun k => (congrArg (val_main_v30 (F := Ideal) x0 x1 x2 x3) (lift_third h q c s k)).trans
      (masked_at x0 x1 x2 x3 q c k s)
  rw [hf, val_main_cst_10_apply, Ideal.ofBits_def, Chamfer.ofBits_negInf]
  rfl

/-! ## Which maxima count, and what they contribute -/

/-- The indicator of a row maximum above the threshold. -/
theorem rowvalid_at (q c : Fin 64) (t : Fin 32) :
    val_main_v34 (F := Ideal) x0 x1 x2 x3 (ix3 q c t)
      = valid (vmax fun s => mRefP (Qof x0 q) (Aof x1 q) (dnrm (Dof x2 c) (Bof x3 c)) (Bof x3 q) t s) := by
  rw [val_main_v34_apply, val_main_v33_apply, val_main_v32_apply, val_main_cst_4_apply, rowmax_at,
    Ideal.ofBits_def, cmpf_ogt, uitofp_ofBool]
  rfl

/-- A row maximum kept where its indicator is positive, `0` elsewhere. -/
theorem rowkeep_at (q c : Fin 64) (t : Fin 32) :
    val_main_v37 (F := Ideal) x0 x1 x2 x3 (ix3 q c t)
      = keep (vmax fun s => mRefP (Qof x0 q) (Aof x1 q) (dnrm (Dof x2 c) (Bof x3 c)) (Bof x3 q) t s) := by
  rw [val_main_v37_apply, val_main_v36_apply, val_main_v35_apply, val_main_cst_5_apply,
    val_main_call3_v1_apply, val_main_call3_v0_apply, val_main_cst_6_apply, rowvalid_at, rowmax_at,
    Ideal.ofBits_def, Chamfer.ofBits_zero, cmpf_ogt, select_ofBool]
  rfl

/-- The indicator of a column maximum above the threshold. -/
theorem colvalid_at (q c : Fin 64) (s : Fin 256) :
    val_main_v46 (F := Ideal) x0 x1 x2 x3 (ix3 q c s)
      = valid (vmax fun t => mRefP (Qof x0 q) (Aof x1 q) (dnrm (Dof x2 c) (Bof x3 c)) (Bof x3 q) t s) := by
  rw [val_main_v46_apply, val_main_v45_apply, val_main_v44_apply, val_main_cst_11_apply, colmax_at,
    Ideal.ofBits_def, cmpf_ogt, uitofp_ofBool]
  rfl

/-- A column maximum kept where its indicator is positive, `0` elsewhere. -/
theorem colkeep_at (q c : Fin 64) (s : Fin 256) :
    val_main_v49 (F := Ideal) x0 x1 x2 x3 (ix3 q c s)
      = keep (vmax fun t => mRefP (Qof x0 q) (Aof x1 q) (dnrm (Dof x2 c) (Bof x3 c)) (Bof x3 q) t s) := by
  rw [val_main_v49_apply, val_main_v48_apply, val_main_v47_apply, val_main_cst_12_apply,
    val_main_call4_v1_apply, val_main_call4_v0_apply, val_main_cst_13_apply, colvalid_at, colmax_at,
    Ideal.ofBits_def, Chamfer.ofBits_zero, cmpf_ogt, select_ofBool]
  rfl

/-! ## The two averages -/

/-- The mean over query tokens: the sum of the kept row maxima over the number of them that count, at least one. -/
theorem rowmean_at (q c : Fin 64) :
    val_main_v42 (F := Ideal) x0 x1 x2 x3 (ix2 q c)
      = Ideal.div (∑ t, keep (vmax fun s => mRefP (Qof x0 q) (Aof x1 q) (dnrm (Dof x2 c) (Bof x3 c)) (Bof x3 q) t s))
          (max (∑ t, valid (vmax fun s => mRefP (Qof x0 q) (Aof x1 q) (dnrm (Dof x2 c) (Bof x3 c)) (Bof x3 q) t s)) 1) := by
  rw [val_main_v42_apply, val_main_v41_apply, val_main_v40_apply, val_main_v38_apply, val_main_v39_apply,
    val_main_cst_9_apply, val_main_cst_7_apply, val_main_cst_8_apply]
  simp only [Ideal.hostDivf_def, Ideal.maximumf_def, Ideal.ofBits_def, Chamfer.ofBits_zero, Chamfer.ofBits_one, zero_add]
  have e1 : ∀ k : Fin 32, idx_main_v41 (ix2 q c) k = ix3 q c k := fun k =>
    funext fun a => Fin.ext (by match a with | ⟨0, _⟩ => rfl | ⟨1, _⟩ => rfl | ⟨2, _⟩ => rfl)
  have e2 : ∀ k : Fin 32, idx_main_v38 (ix2 q c) k = ix3 q c k := fun k =>
    funext fun a => Fin.ext (by match a with | ⟨0, _⟩ => rfl | ⟨1, _⟩ => rfl | ⟨2, _⟩ => rfl)
  congr 1
  · exact Finset.sum_congr rfl fun k _ => by rw [e1 k]; exact rowkeep_at x0 x1 x2 x3 q c k
  · exact congrArg (fun z => max z (1 : EReal))
      (Finset.sum_congr rfl fun k _ => by rw [e2 k]; exact rowvalid_at x0 x1 x2 x3 q c k)

/-- The mean over document tokens, likewise. -/
theorem colmean_at (q c : Fin 64) :
    val_main_v54 (F := Ideal) x0 x1 x2 x3 (ix2 q c)
      = Ideal.div (∑ s, keep (vmax fun t => mRefP (Qof x0 q) (Aof x1 q) (dnrm (Dof x2 c) (Bof x3 c)) (Bof x3 q) t s))
          (max (∑ s, valid (vmax fun t => mRefP (Qof x0 q) (Aof x1 q) (dnrm (Dof x2 c) (Bof x3 c)) (Bof x3 q) t s)) 1) := by
  rw [val_main_v54_apply, val_main_v53_apply, val_main_v52_apply, val_main_v50_apply, val_main_v51_apply,
    val_main_cst_16_apply, val_main_cst_14_apply, val_main_cst_15_apply]
  simp only [Ideal.hostDivf_def, Ideal.maximumf_def, Ideal.ofBits_def, Chamfer.ofBits_zero, Chamfer.ofBits_one, zero_add]
  have e1 : ∀ k : Fin 256, idx_main_v53 (ix2 q c) k = ix3 q c k := fun k =>
    funext fun a => Fin.ext (by match a with | ⟨0, _⟩ => rfl | ⟨1, _⟩ => rfl | ⟨2, _⟩ => rfl)
  have e2 : ∀ k : Fin 256, idx_main_v50 (ix2 q c) k = ix3 q c k := fun k =>
    funext fun a => Fin.ext (by match a with | ⟨0, _⟩ => rfl | ⟨1, _⟩ => rfl | ⟨2, _⟩ => rfl)
  congr 1
  · exact Finset.sum_congr rfl fun k _ => by rw [e1 k]; exact colkeep_at x0 x1 x2 x3 q c k
  · exact congrArg (fun z => max z (1 : EReal))
      (Finset.sum_congr rfl fun k _ => by rw [e2 k]; exact colvalid_at x0 x1 x2 x3 q c k)

end

/-- Entry `(q, c)` of the reference's result is `refG` of the argument arrays at `(q, c)`. -/
theorem ref_at (x0 : (⟨S64x32x128, .f32⟩ : BufTy).Contents (Elt Ideal)) (x1 : (⟨S64x32, .i32⟩ : BufTy).Contents (Elt Ideal))
    (x2 : (⟨S64x256x128, .f32⟩ : BufTy).Contents (Elt Ideal)) (x3 : (⟨S64x256, .i32⟩ : BufTy).Contents (Elt Ideal))
    (q c : Fin 64) :
    val_main_v57 (F := Ideal) x0 x1 x2 x3 (ix2 q c) = Chamfer.refG (Chamfer.Qof x0) (Chamfer.Aof x1) (Chamfer.Dof x2) (Chamfer.Bof x3) q c := by
  rw [val_main_v57_apply, val_main_v55_apply, val_main_v56_apply, val_main_cst_17_apply, rowmean_at, colmean_at,
    Ideal.hostDivf_def, Ideal.addf_def, Ideal.ofBits_def]
  rfl

end Chamfer.RefBridge

end
-- ==== Proof.RefRunS.lean ====
/-
  The reference's run, read through its stages.

  The reference is a straight line of 92 host operations, so every weakly fair execution runs them in order and
  each buffer ends at the fold of the operations' results. Read as ONE term of the arguments that fold is large:
  the hidden similarities (operation 46's result) feed two maxima, each of which is used several times over. So the
  line is cut there: the first 46 operations leave the hidden similarities at their stage, a nearly linear chain;
  the last 46, run from ANY contents, leave the result at the tail's operations of whatever the hidden
  similarities were. Put together: the result is the last stage of the arguments.
-/
import proofs.«431161_j66718021976303_3_alg».proof.Proof.RefRun
import proofs.«431161_j66718021976303_3_alg».proof.Proof.RefRead
import Idealize.ShloMosaic.Lib.StableHlo.Run
import Idealize.ShloMosaic.Lib.Tactic

noncomputable section

namespace Chamfer.RefRunS

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Idealize.ShloMosaic.Tactic

variable {F : FTy → Type} [FloatOps F]

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first 46 operations: both normalisations, the two converted masks, the similarities, the pair mask, and
    the hidden similarities. -/
abbrev ops₁ : List (HloOp τ sig (Elt F)) :=
  [ TRef.binary (TRef.of (T := ⟨S64x32x128, .f32⟩) main_arg0) (TRef.of (T := ⟨S64x32x128, .f32⟩) main_arg0) (TRef.of (T := ⟨S64x32x128, .f32⟩) main_call0_v0) mulf,
    TRef.nullary (TRef.of (T := ⟨S_, .f32⟩) main_call0_cst) (constant S_ .f32 0x00000000#32),
    TRef.binary (TRef.of (T := ⟨S64x32x128, .f32⟩) main_call0_v0) (TRef.of (T := ⟨S_, .f32⟩) main_call0_cst) (TRef.of (T := ⟨S64x32, .f32⟩) main_call0_v1) (fun x v => Host.reduceAdd x v reducesTo_S64x32x128_S64x32_d2 h_S_),
    TRef.unary (TRef.of (T := ⟨S64x32, .f32⟩) main_call0_v1) (TRef.of (T := ⟨S64x32x1, .f32⟩) main_call0_v2) (broadcastInDim S64x32x1 ![0, 1] bcast_S64x32_S64x32x1_0_1),
    TRef.unary (TRef.of (T := ⟨S64x32x1, .f32⟩) main_call0_v2) (TRef.of (T := ⟨S64x32x1, .f32⟩) main_v0) Host.sqrt,
    nullary main_cst (constant S_ .f32 0x2B8CBCCC#32),
    unary main_cst main_v1 (broadcastInDim S64x32x1 ![] bcast_S_S64x32x1 : (⟨S_, .f32⟩ : BufTy).Contents (Elt F) → (⟨S64x32x1, .f32⟩ : BufTy).Contents (Elt F)),
    binary main_v0 main_v1 main_v2 (maximumf : (⟨S64x32x1, .f32⟩ : BufTy).Contents (Elt F) → (⟨S64x32x1, .f32⟩ : BufTy).Contents (Elt F) → (⟨S64x32x1, .f32⟩ : BufTy).Contents (Elt F)),
    unary main_v2 main_v3 (broadcastInDim S64x32x128 ![0, 1, 2] bcast_S64x32x1_S64x32x128_0_1_2 : (⟨S64x32x1, .f32⟩ : BufTy).Contents (Elt F) → (⟨S64x32x128, .f32⟩ : BufTy).Contents (Elt F)),
    binary main_arg0 main_v3 main_v4 (Host.divf : (⟨S64x32x128, .f32⟩ : BufTy).Contents (Elt F) → (⟨S64x32x128, .f32⟩ : BufTy).Contents (Elt F) → (⟨S64x32x128, .f32⟩ : BufTy).Contents (Elt F)),
    TRef.binary (TRef.of (T := ⟨S64x256x128, .f32⟩) main_arg2) (TRef.of (T := ⟨S64x256x128, .f32⟩) main_arg2) (TRef.of (T := ⟨S64x256x128, .f32⟩) main_call1_v0) mulf,
    TRef.nullary (TRef.of (T := ⟨S_, .f32⟩) main_call1_cst) (constant S_ .f32 0x00000000#32),
    TRef.binary (TRef.of (T := ⟨S64x256x128, .f32⟩) main_call1_v0) (TRef.of (T := ⟨S_, .f32⟩) main_call1_cst) (TRef.of (T := ⟨S64x256, .f32⟩) main_call1_v1) (fun x v => Host.reduceAdd x v reducesTo_S64x256x128_S64x256_d2 h_S_),
    TRef.unary (TRef.of (T := ⟨S64x256, .f32⟩) main_call1_v1) (TRef.of (T := ⟨S64x256x1, .f32⟩) main_call1_v2) (broadcastInDim S64x256x1 ![0, 1] bcast_S64x256_S64x256x1_0_1),
    TRef.unary (TRef.of (T := ⟨S64x256x1, .f32⟩) main_call1_v2) (TRef.of (T := ⟨S64x256x1, .f32⟩) main_v5) Host.sqrt,
    nullary main_cst_0 (constant S_ .f32 0x2B8CBCCC#32),
    unary main_cst_0 main_v6 (broadcastInDim S64x256x1 ![] bcast_S_S64x256x1 : (⟨S_, .f32⟩ : BufTy).Contents (Elt F) → (⟨S64x256x1, .f32⟩ : BufTy).Contents (Elt F)),
    binary main_v5 main_v6 main_v7 (maximumf : (⟨S64x256x1, .f32⟩ : BufTy).Contents (Elt F) → (⟨S64x256x1, .f32⟩ : BufTy).Contents (Elt F) → (⟨S64x256x1, .f32⟩ : BufTy).Contents (Elt F)),
    unary main_v7 main_v8 (broadcastInDim S64x256x128 ![0, 1, 2] bcast_S64x256x1_S64x256x128_0_1_2 : (⟨S64x256x1, .f32⟩ : BufTy).Contents (Elt F) → (⟨S64x256x128, .f32⟩ : BufTy).Contents (Elt F)),
    binary main_arg2 main_v8 main_v9 (Host.divf : (⟨S64x256x128, .f32⟩ : BufTy).Contents (Elt F) → (⟨S64x256x128, .f32⟩ : BufTy).Contents (Elt F) → (⟨S64x256x128, .f32⟩ : BufTy).Contents (Elt F)),
    unary main_arg1 main_v10 (sitofp (F := F) .f32 : (⟨S64x32, .i32⟩ : BufTy).Contents (Elt F) → (⟨S64x32, .f32⟩ : BufTy).Contents (Elt F)),
    unary main_v10 main_v11 (broadcastInDim S64x32x1 ![0, 1] bcast_S64x32_S64x32x1_0_1 : (⟨S64x32, .f32⟩ : BufTy).Contents (Elt F) → (⟨S64x32x1, .f32⟩ : BufTy).Contents (Elt F)),
    unary main_arg3 main_v12 (sitofp (F := F) .f32 : (⟨S64x256, .i32⟩ : BufTy).Contents (Elt F) → (⟨S64x256, .f32⟩ : BufTy).Contents (Elt F)),
    unary main_v12 main_v13 (broadcastInDim S64x256x1 ![0, 1] bcast_S64x256_S64x256x1_0_1 : (⟨S64x256, .f32⟩ : BufTy).Contents (Elt F) → (⟨S64x256x1, .f32⟩ : BufTy).Contents (Elt F)),
    unary main_v11 main_v14 (broadcastInDim S64x32x128 ![0, 1, 2] bcast_S64x32x1_S64x32x128_0_1_2 : (⟨S64x32x1, .f32⟩ : BufTy).Contents (Elt F) → (⟨S64x32x128, .f32⟩ : BufTy).Contents (Elt F)),
    binary main_v4 main_v14 main_v15 (mulf : (⟨S64x32x128, .f32⟩ : BufTy).Contents (Elt F) → (⟨S64x32x128, .f32⟩ : BufTy).Contents (Elt F) → (⟨S64x32x128, .f32⟩ : BufTy).Contents (Elt F)),
    unary main_v13 main_v16 (broadcastInDim S64x256x128 ![0, 1, 2] bcast_S64x256x1_S64x256x128_0_1_2 : (⟨S64x256x1, .f32⟩ : BufTy).Contents (Elt F) → (⟨S64x256x128, .f32⟩ : BufTy).Contents (Elt F)),
    binary main_v9 main_v16 main_v17 (mulf : (⟨S64x256x128, .f32⟩ : BufTy).Contents (Elt F) → (⟨S64x256x128, .f32⟩ : BufTy).Contents (Elt F) → (⟨S64x256x128, .f32⟩ : BufTy).Contents (Elt F)),
    binary main_v17 main_v15 main_v18 ((fun l r => Host.dotGeneral dot_S64x256x128_S64x32x128_S64x256x64x32_2_2_01_01_n_n none l r) : (⟨S64x256x128, .f32⟩ : BufTy).Contents (Elt F) → (⟨S64x32x128, .f32⟩ : BufTy).Contents (Elt F) → (⟨S64x256x64x32, .f32⟩ : BufTy).Contents (Elt F)),
    unary main_v18 main_v19 ((transpose S64x64x32x256 [2, 0, 3, 1] · transposes_S64x256x64x32_S64x64x32x256_2_0_3_1) : (⟨S64x256x64x32, .f32⟩ : BufTy).Contents (Elt F) → (⟨S64x64x32x256, .f32⟩ : BufTy).Contents (Elt F)),
    unary main_v11 main_v20 (broadcastInDim S64x1x32x1 ![0, 2, 3] bcast_S64x32x1_S64x1x32x1_0_2_3 : (⟨S64x32x1, .f32⟩ : BufTy).Contents (Elt F) → (⟨S64x1x32x1, .f32⟩ : BufTy).Contents (Elt F)),
    reshape main_v13 main_v21 rfl shapeCasts_S64x256x1_S64x256,
    unary main_v21 main_v22 (broadcastInDim S1x64x256 ![1, 2] bcast_S64x256_S1x64x256_1_2 : (⟨S64x256, .f32⟩ : BufTy).Contents (Elt F) → (⟨S1x64x256, .f32⟩ : BufTy).Contents (Elt F)),
    unary main_v22 main_v23 (broadcastInDim S1x64x1x256 ![0, 1, 3] bcast_S1x64x256_S1x64x1x256_0_1_3 : (⟨S1x64x256, .f32⟩ : BufTy).Contents (Elt F) → (⟨S1x64x1x256, .f32⟩ : BufTy).Contents (Elt F)),
    unary main_v23 main_v24 ((transpose S64x1x1x256 [1, 0, 2, 3] · transposes_S1x64x1x256_S64x1x1x256_1_0_2_3) : (⟨S1x64x1x256, .f32⟩ : BufTy).Contents (Elt F) → (⟨S64x1x1x256, .f32⟩ : BufTy).Contents (Elt F)),
    unary main_v20 main_v25 (broadcastInDim S64x1x32x256 ![0, 1, 2, 3] bcast_S64x1x32x1_S64x1x32x256_0_1_2_3 : (⟨S64x1x32x1, .f32⟩ : BufTy).Contents (Elt F) → (⟨S64x1x32x256, .f32⟩ : BufTy).Contents (Elt F)),
    unary main_v24 main_v26 (broadcastInDim S64x1x32x256 ![0, 1, 2, 3] bcast_S64x1x1x256_S64x1x32x256_0_1_2_3 : (⟨S64x1x1x256, .f32⟩ : BufTy).Contents (Elt F) → (⟨S64x1x32x256, .f32⟩ : BufTy).Contents (Elt F)),
    binary main_v25 main_v26 main_v27 (mulf : (⟨S64x1x32x256, .f32⟩ : BufTy).Contents (Elt F) → (⟨S64x1x32x256, .f32⟩ : BufTy).Contents (Elt F) → (⟨S64x1x32x256, .f32⟩ : BufTy).Contents (Elt F)),
    nullary main_cst_1 (constant S_ .f32 0x00000000#32),
    unary main_cst_1 main_v28 (broadcastInDim S64x1x32x256 ![] bcast_S_S64x1x32x256 : (⟨S_, .f32⟩ : BufTy).Contents (Elt F) → (⟨S64x1x32x256, .f32⟩ : BufTy).Contents (Elt F)),
    binary main_v27 main_v28 main_v29 (cmpf (F := F) .ogt : (⟨S64x1x32x256, .f32⟩ : BufTy).Contents (Elt F) → (⟨S64x1x32x256, .f32⟩ : BufTy).Contents (Elt F) → (⟨S64x1x32x256, .i1⟩ : BufTy).Contents (Elt F)),
    nullary main_cst_2 (constant S_ .f32 0xCE6E6B28#32),
    TRef.unary (TRef.of (T := ⟨S_, .f32⟩) main_cst_2) (TRef.of (T := ⟨S_, .f32⟩) main_call2_v0) id,
    TRef.unary (TRef.of (T := ⟨S64x1x32x256, .i1⟩) main_v29) (TRef.of (T := ⟨S64x64x32x256, .i1⟩) main_call2_v1) (broadcastInDim S64x64x32x256 ![0, 1, 2, 3] bcast_S64x1x32x256_S64x64x32x256_0_1_2_3),
    TRef.unary (TRef.of (T := ⟨S_, .f32⟩) main_call2_v0) (TRef.of (T := ⟨S64x64x32x256, .f32⟩) main_call2_v2) (broadcastInDim S64x64x32x256 ![] bcast_S_S64x64x32x256),
    TRef.ternary (TRef.of (T := ⟨S64x64x32x256, .i1⟩) main_call2_v1) (TRef.of (T := ⟨S64x64x32x256, .f32⟩) main_v19) (TRef.of (T := ⟨S64x64x32x256, .f32⟩) main_call2_v2) (TRef.of (T := ⟨S64x64x32x256, .f32⟩) main_v30) select ]

/-- The last 46 operations: the two maxima, their thresholds, counts, sums, quotients, and the halved sum. (The six
    operations of the two inlined selections are written directly on their buffers: passing an operand through a
    typed reference is the identity, so this is the same list: `ops_split`.) -/
abbrev ops₂ : List (HloOp τ sig (Elt F)) :=
  [ nullary main_cst_3 (constant S_ .f32 0xFF800000#32),
    binary main_v30 main_cst_3 main_v31 ((fun x v => Host.reduce FloatOps.maximumf x v reducesTo_S64x64x32x256_S64x64x32_d3 h_S_) : (⟨S64x64x32x256, .f32⟩ : BufTy).Contents (Elt F) → (⟨S_, .f32⟩ : BufTy).Contents (Elt F) → (⟨S64x64x32, .f32⟩ : BufTy).Contents (Elt F)),
    nullary main_cst_4 (constant S_ .f32 0xCCBEBC20#32),
    unary main_cst_4 main_v32 (broadcastInDim S64x64x32 ![] bcast_S_S64x64x32 : (⟨S_, .f32⟩ : BufTy).Contents (Elt F) → (⟨S64x64x32, .f32⟩ : BufTy).Contents (Elt F)),
    binary main_v31 main_v32 main_v33 (cmpf (F := F) .ogt : (⟨S64x64x32, .f32⟩ : BufTy).Contents (Elt F) → (⟨S64x64x32, .f32⟩ : BufTy).Contents (Elt F) → (⟨S64x64x32, .i1⟩ : BufTy).Contents (Elt F)),
    unary main_v33 main_v34 (uitofp (F := F) .f32 : (⟨S64x64x32, .i1⟩ : BufTy).Contents (Elt F) → (⟨S64x64x32, .f32⟩ : BufTy).Contents (Elt F)),
    nullary main_cst_5 (constant S_ .f32 0x00000000#32),
    unary main_cst_5 main_v35 (broadcastInDim S64x64x32 ![] bcast_S_S64x64x32 : (⟨S_, .f32⟩ : BufTy).Contents (Elt F) → (⟨S64x64x32, .f32⟩ : BufTy).Contents (Elt F)),
    binary main_v34 main_v35 main_v36 (cmpf (F := F) .ogt : (⟨S64x64x32, .f32⟩ : BufTy).Contents (Elt F) → (⟨S64x64x32, .f32⟩ : BufTy).Contents (Elt F) → (⟨S64x64x32, .i1⟩ : BufTy).Contents (Elt F)),
    nullary main_cst_6 (constant S_ .f32 0x00000000#32),
    unary main_cst_6 main_call3_v0 (id : (⟨S_, .f32⟩ : BufTy).Contents (Elt F) → (⟨S_, .f32⟩ : BufTy).Contents (Elt F)),
    unary main_call3_v0 main_call3_v1 (broadcastInDim S64x64x32 ![] bcast_S_S64x64x32 : (⟨S_, .f32⟩ : BufTy).Contents (Elt F) → (⟨S64x64x32, .f32⟩ : BufTy).Contents (Elt F)),
    ternary main_v36 main_v31 main_call3_v1 main_v37 (select : (⟨S64x64x32, .i1⟩ : BufTy).Contents (Elt F) → (⟨S64x64x32, .f32⟩ : BufTy).Contents (Elt F) → (⟨S64x64x32, .f32⟩ : BufTy).Contents (Elt F) → (⟨S64x64x32, .f32⟩ : BufTy).Contents (Elt F)),
    nullary main_cst_7 (constant S_ .f32 0x00000000#32),
    binary main_v34 main_cst_7 main_v38 ((fun x v => Host.reduceAdd x v reducesTo_S64x64x32_S64x64_d2 h_S_) : (⟨S64x64x32, .f32⟩ : BufTy).Contents (Elt F) → (⟨S_, .f32⟩ : BufTy).Contents (Elt F) → (⟨S64x64, .f32⟩ : BufTy).Contents (Elt F)),
    nullary main_cst_8 (constant S_ .f32 0x3F800000#32),
    unary main_cst_8 main_v39 (broadcastInDim S64x64 ![] bcast_S_S64x64 : (⟨S_, .f32⟩ : BufTy).Contents (Elt F) → (⟨S64x64, .f32⟩ : BufTy).Contents (Elt F)),
    binary main_v38 main_v39 main_v40 (maximumf : (⟨S64x64, .f32⟩ : BufTy).Contents (Elt F) → (⟨S64x64, .f32⟩ : BufTy).Contents (Elt F) → (⟨S64x64, .f32⟩ : BufTy).Contents (Elt F)),
    nullary main_cst_9 (constant S_ .f32 0x00000000#32),
    binary main_v37 main_cst_9 main_v41 ((fun x v => Host.reduceAdd x v reducesTo_S64x64x32_S64x64_d2 h_S_) : (⟨S64x64x32, .f32⟩ : BufTy).Contents (Elt F) → (⟨S_, .f32⟩ : BufTy).Contents (Elt F) → (⟨S64x64, .f32⟩ : BufTy).Contents (Elt F)),
    binary main_v41 main_v40 main_v42 (Host.divf : (⟨S64x64, .f32⟩ : BufTy).Contents (Elt F) → (⟨S64x64, .f32⟩ : BufTy).Contents (Elt F) → (⟨S64x64, .f32⟩ : BufTy).Contents (Elt F)),
    nullary main_cst_10 (constant S_ .f32 0xFF800000#32),
    binary main_v30 main_cst_10 main_v43 ((fun x v => Host.reduce FloatOps.maximumf x v reducesTo_S64x64x32x256_S64x64x256_d2 h_S_) : (⟨S64x64x32x256, .f32⟩ : BufTy).Contents (Elt F) → (⟨S_, .f32⟩ : BufTy).Contents (Elt F) → (⟨S64x64x256, .f32⟩ : BufTy).Contents (Elt F)),
    nullary main_cst_11 (constant S_ .f32 0xCCBEBC20#32),
    unary main_cst_11 main_v44 (broadcastInDim S64x64x256 ![] bcast_S_S64x64x256 : (⟨S_, .f32⟩ : BufTy).Contents (Elt F) → (⟨S64x64x256, .f32⟩ : BufTy).Contents (Elt F)),
    binary main_v43 main_v44 main_v45 (cmpf (F := F) .ogt : (⟨S64x64x256, .f32⟩ : BufTy).Contents (Elt F) → (⟨S64x64x256, .f32⟩ : BufTy).Contents (Elt F) → (⟨S64x64x256, .i1⟩ : BufTy).Contents (Elt F)),
    unary main_v45 main_v46 (uitofp (F := F) .f32 : (⟨S64x64x256, .i1⟩ : BufTy).Contents (Elt F) → (⟨S64x64x256, .f32⟩ : BufTy).Contents (Elt F)),
    nullary main_cst_12 (constant S_ .f32 0x00000000#32),
    unary main_cst_12 main_v47 (broadcastInDim S64x64x256 ![] bcast_S_S64x64x256 : (⟨S_, .f32⟩ : BufTy).Contents (Elt F) → (⟨S64x64x256, .f32⟩ : BufTy).Contents (Elt F)),
    binary main_v46 main_v47 main_v48 (cmpf (F := F) .ogt : (⟨S64x64x256, .f32⟩ : BufTy).Contents (Elt F) → (⟨S64x64x256, .f32⟩ : BufTy).Contents (Elt F) → (⟨S64x64x256, .i1⟩ : BufTy).Contents (Elt F)),
    nullary main_cst_13 (constant S_ .f32 0x00000000#32),
    unary main_cst_13 main_call4_v0 (id : (⟨S_, .f32⟩ : BufTy).Contents (Elt F) → (⟨S_, .f32⟩ : BufTy).Contents (Elt F)),
    unary main_call4_v0 main_call4_v1 (broadcastInDim S64x64x256 ![] bcast_S_S64x64x256 : (⟨S_, .f32⟩ : BufTy).Contents (Elt F) → (⟨S64x64x256, .f32⟩ : BufTy).Contents (Elt F)),
    ternary main_v48 main_v43 main_call4_v1 main_v49 (select : (⟨S64x64x256, .i1⟩ : BufTy).Contents (Elt F) → (⟨S64x64x256, .f32⟩ : BufTy).Contents (Elt F) → (⟨S64x64x256, .f32⟩ : BufTy).Contents (Elt F) → (⟨S64x64x256, .f32⟩ : BufTy).Contents (Elt F)),
    nullary main_cst_14 (constant S_ .f32 0x00000000#32),
    binary main_v46 main_cst_14 main_v50 ((fun x v => Host.reduceAdd x v reducesTo_S64x64x256_S64x64_d2 h_S_) : (⟨S64x64x256, .f32⟩ : BufTy).Contents (Elt F) → (⟨S_, .f32⟩ : BufTy).Contents (Elt F) → (⟨S64x64, .f32⟩ : BufTy).Contents (Elt F)),
    nullary main_cst_15 (constant S_ .f32 0x3F800000#32),
    unary main_cst_15 main_v51 (broadcastInDim S64x64 ![] bcast_S_S64x64 : (⟨S_, .f32⟩ : BufTy).Contents (Elt F) → (⟨S64x64, .f32⟩ : BufTy).Contents (Elt F)),
    binary main_v50 main_v51 main_v52 (maximumf : (⟨S64x64, .f32⟩ : BufTy).Contents (Elt F) → (⟨S64x64, .f32⟩ : BufTy).Contents (Elt F) → (⟨S64x64, .f32⟩ : BufTy).Contents (Elt F)),
    nullary main_cst_16 (constant S_ .f32 0x00000000#32),
    binary main_v49 main_cst_16 main_v53 ((fun x v => Host.reduceAdd x v reducesTo_S64x64x256_S64x64_d2 h_S_) : (⟨S64x64x256, .f32⟩ : BufTy).Contents (Elt F) → (⟨S_, .f32⟩ : BufTy).Contents (Elt F) → (⟨S64x64, .f32⟩ : BufTy).Contents (Elt F)),
    binary main_v53 main_v52 main_v54 (Host.divf : (⟨S64x64, .f32⟩ : BufTy).Contents (Elt F) → (⟨S64x64, .f32⟩ : BufTy).Contents (Elt F) → (⟨S64x64, .f32⟩ : BufTy).Contents (Elt F)),
    binary main_v42 main_v54 main_v55 (addf : (⟨S64x64, .f32⟩ : BufTy).Contents (Elt F) → (⟨S64x64, .f32⟩ : BufTy).Contents (Elt F) → (⟨S64x64, .f32⟩ : BufTy).Contents (Elt F)),
    nullary main_cst_17 (constant S_ .f32 0x40000000#32),
    unary main_cst_17 main_v56 (broadcastInDim S64x64 ![] bcast_S_S64x64 : (⟨S_, .f32⟩ : BufTy).Contents (Elt F) → (⟨S64x64, .f32⟩ : BufTy).Contents (Elt F)),
    binary main_v55 main_v56 main_v57 (Host.divf : (⟨S64x64, .f32⟩ : BufTy).Contents (Elt F) → (⟨S64x64, .f32⟩ : BufTy).Contents (Elt F) → (⟨S64x64, .f32⟩ : BufTy).Contents (Elt F)) ]

theorem ops_split : (ops : List (HloOp τ sig (Elt F))) = ops₁ ++ ops₂ := rfl

/-- After the first half the hidden similarities are at their stage of the arguments. -/
theorem stage30 (m : (ℓ : Loc nD τ sig) → Buf (Elt F) ℓ) (c : Dev nD) :
    after ops₁ (launchContents m c) (Proc.devRef .tc main_v30)
      = val_main_v30 (F := F) (m ((c.tc : Thread nD τ).loc main_arg0)) (m ((c.tc : Thread nD τ).loc main_arg1)) (m ((c.tc : Thread nD τ).loc main_arg2)) (m ((c.tc : Thread nD τ).loc main_arg3)) := by
  after_results_simp <;> rfl

set_option maxRecDepth 8192 in
/-- The second half, run from ANY contents whose hidden similarities are a given stage, leaves the result at the
    last stage: the tail reads nothing else the first half wrote. -/
theorem stage57 (W : Valuation τ sig (Elt F))
    (x0 : (⟨S64x32x128, .f32⟩ : BufTy).Contents (Elt F)) (x1 : (⟨S64x32, .i32⟩ : BufTy).Contents (Elt F))
    (x2 : (⟨S64x256x128, .f32⟩ : BufTy).Contents (Elt F)) (x3 : (⟨S64x256, .i32⟩ : BufTy).Contents (Elt F))
    (hW : W (Proc.devRef .tc main_v30) = val_main_v30 (F := F) x0 x1 x2 x3) :
    after ops₂ W (Proc.devRef .tc main_v57) = val_main_v57 (F := F) x0 x1 x2 x3 := by
  after_results_simp
  rw [hW]
  rfl

/-- After the whole line the result buffer is at the last stage of the arguments. -/
theorem result_eq (m : (ℓ : Loc nD τ sig) → Buf (Elt F) ℓ) (c : Dev nD) :
    after ops (launchContents m c) (Proc.devRef .tc main_v57)
      = val_main_v57 (F := F) (m ((c.tc : Thread nD τ).loc main_arg0)) (m ((c.tc : Thread nD τ).loc main_arg1)) (m ((c.tc : Thread nD τ).loc main_arg2)) (m ((c.tc : Thread nD τ).loc main_arg3)) := by
  rw [ops_split, after_app]
  exact stage57 _ _ _ _ _ (stage30 m c)

/-- THE REFERENCE'S RUN: from any memory with zero counters every weakly fair execution of @main terminates with
    the result at the last stage of the arguments, and the arguments unchanged (no operation writes one). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = val_main_v57 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v57).trans (result_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Chamfer.RefRunS

end
-- ==== Proof.PreFacts.lean ====
/-
  What the stated precondition says of the argument arrays: every embedding entry is a real number, every mask
  entry is 0 or 1.

  The precondition is a conjunction of four "for all entries" tests, each a reduction by `and` of an array of truth
  values down to a single one. That the whole is `1` therefore says each test holds at every entry. For the two
  embedding arrays the test at an entry `x` is `|x| < +∞`, with `|x| = max x (-x)`; among the extended reals only
  `±∞` fail it, so `x` is a real number. For the two mask arrays the test at a word `w` is `w = 0 or w = 1`, so the
  signed integer the word spells, read as a real, is `0` or `1`.
-/
import proofs.«431161_j66718021976303_3_alg».proof.Pre_finite_inputs
import proofs.«431161_j66718021976303_3_alg».proof.Proof.Args
import Idealize.ShloMosaic.Lib.ReduceAll
import Idealize.ShloMosaic.Lib.StableHlo.Predicate

noncomputable section

namespace Chamfer

open Idealize.ShloMosaic

/-- The pattern `0x7F800000` (sign 0, exponent all ones, mantissa 0) denotes `+∞`. -/
theorem ofBits_posInf : Ideal.ofBits .f32 0x7F800000#32 = ⊤ := by
  simp [Ideal.ofBits, Ideal.ieee]

/-- An extended real whose absolute value `max x (-x)` lies strictly below `+∞` is a real number: at `x = -∞` and
    at `x = +∞` the absolute value is `+∞` itself, which is not below `+∞`. -/
theorem real_of_abs_lt_top (x : EReal)
    (h : Ideal.cmp .olt (max x (-x)) (Ideal.ofBits .f32 0x7F800000#32) = 1#1) : ∃ r : ℝ, x = (r : EReal) := by
  rw [ofBits_posInf] at h
  simp only [Ideal.cmp, StableHlo.Predicate.ofBool_eq_one_iff, decide_eq_true_eq] at h
  induction x using EReal.rec with
  | bot => simp at h
  | top => simp at h
  | coe r => exact ⟨r, rfl⟩

/-- A 32-bit word that passes the test "equal to `0`, or equal to `1`" spells, as a signed integer read as a real,
    `0` or `1`. -/
theorem word_zero_or_one (w : BitVec 32)
    (h : IntOp.ori (IntOp.cmpi .eq w 0#32) (IntOp.cmpi .eq w 1#32) = 1#1) :
    (((w.toInt : ℝ)) : EReal) = 0 ∨ (((w.toInt : ℝ)) : EReal) = 1 := by
  rcases IntOp.ori_eq_one.1 h with h0 | h1
  · left
    rw [StableHlo.Predicate.cmpi_eq_iff.1 h0]
    simp
  · right
    rw [StableHlo.Predicate.cmpi_eq_iff.1 h1]
    have e : (1#32 : BitVec 32).toInt = 1 := by decide
    rw [e]; simp

/-- The printed precondition, all ones, gives: real embeddings, and masks whose entries read 0 or 1. -/
theorem facts_of_pre [Cert.Pre_finite_inputs.Facts]
    (x0 : FVec Ideal ⟨3, ![64, 32, 128]⟩ .f32) (x1 : IVec ⟨2, ![64, 32]⟩ 32)
    (x2 : FVec Ideal ⟨3, ![64, 256, 128]⟩ .f32) (x3 : IVec ⟨2, ![64, 256]⟩ 32)
    (h : Cert.Pre_finite_inputs.fn (F := Ideal) x0 x1 x2 x3 = fun _ => 1#1) :
    (∀ q t d, ∃ r : ℝ, Qof x0 q t d = (r : EReal)) ∧ (∀ c s d, ∃ r : ℝ, Dof x2 c s d = (r : EReal))
      ∧ (∀ q t, Aof x1 q t = 0 ∨ Aof x1 q t = 1) ∧ (∀ c s, Bof x3 c s = 0 ∨ Bof x3 c s = 1) := by
  -- a shape of rank 0 has exactly one index
  haveI : Subsingleton Cert.Pre_finite_inputs.S_.Idx := ⟨fun a b => funext fun d => d.elim0⟩
  -- the precondition's single truth value, as the conjunction of its four tests
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun q t d => ?_, fun c s d => ?_, fun q t => ?_, fun c s => ?_⟩
  · -- the first test at the entry (q, t, d): the constant compared against is +∞ at every index
    have e := Host.reduce_andi_all _ _ _ _ _ h1 (ValueIdx.ix3 q t d)
    rw [ValueIdx.cmpf_apply, StableHlo.Predicate.bcast_scalar _ Cert.Pre_finite_inputs.Facts.h_S_] at e
    exact real_of_abs_lt_top (x0 (ValueIdx.ix3 q t d)) e
  · -- the second test at the entry (c, s, d)
    have e := Host.reduce_andi_all _ _ _ _ _ h2 (ValueIdx.ix3 c s d)
    rw [ValueIdx.cmpf_apply, StableHlo.Predicate.bcast_scalar _ Cert.Pre_finite_inputs.Facts.h_S_] at e
    exact real_of_abs_lt_top (x2 (ValueIdx.ix3 c s d)) e
  · -- the third test at the word (q, t): the two constants compared against are 0 and 1 at every index
    have e := Host.reduce_andi_all _ _ _ _ _ h3 (ValueIdx.ix2 q t)
    simp only [ori, cmpi, StableHlo.Predicate.bcast_scalar _ Cert.Pre_finite_inputs.Facts.h_S_] at e
    exact word_zero_or_one (x1 (ValueIdx.ix2 q t)) e
  · -- the fourth test at the word (c, s)
    have e := Host.reduce_andi_all _ _ _ _ _ h4 (ValueIdx.ix2 c s)
    simp only [ori, cmpi, StableHlo.Predicate.bcast_scalar _ Cert.Pre_finite_inputs.Facts.h_S_] at e
    exact word_zero_or_one (x3 (ValueIdx.ix2 c s)) e

end Chamfer

end
-- ==== Proof.Bounds.lean ====
/-
  Normalised token vectors have real components of size at most 1, so an inner product of two of them over the
  128 features is a real number of size at most 128.
-/
import proofs.«431161_j66718021976303_3_alg».proof.Proof.Spec

noncomputable section

namespace Chamfer

open Idealize.ShloMosaic

namespace Bounds

/-- The coercion of a finite sum of reals is the sum of the coercions (induction on the index set, the coercion
    being additive). -/
theorem coe_sum_real {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of the larger of two reals is the larger of the coercions: the coercion is monotone. -/
theorem coe_max_real (a b : ℝ) : ((max a b : ℝ) : EReal) = max (a : EReal) (b : EReal) :=
  EReal.coe_strictMono.monotone.map_max

/-- A component of a real vector is at most its Euclidean norm in size: `x_d² ≤ ∑ x²`, all terms being squares. -/
theorem abs_le_sqrt_sum_sq {ι : Type*} [Fintype ι] (x : ι → ℝ) (d : ι) :
    |x d| ≤ Real.sqrt (∑ i, x i * x i) := by
  refine Real.abs_le_sqrt ?_
  rw [sq]
  exact Finset.single_le_sum (f := fun i => x i * x i) (fun i _ => mul_self_nonneg (x i)) (Finset.mem_univ d)

/-- The guarded norm of a real vector `x` is the real `max (√(∑ x²)) e`, where `e > 0` is the guard; it is positive
    and at least the Euclidean norm. -/
theorem nrm_real (Z : Fin 128 → EReal) (x : Fin 128 → ℝ) (hx : ∀ d, Z d = (x d : EReal)) :
    ∃ n : ℝ, 0 < n ∧ Real.sqrt (∑ i, x i * x i) ≤ n ∧ nrm Z = (n : EReal) := by
  obtain ⟨e, he, hee⟩ := eps_pos
  have hS0 : 0 ≤ ∑ i, x i * x i := Finset.sum_nonneg (fun i _ => mul_self_nonneg (x i))
  have hsum : (∑ i, Z i * Z i) = ((∑ i, x i * x i : ℝ) : EReal) := by
    rw [coe_sum_real]
    exact Finset.sum_congr rfl (fun i _ => by rw [hx i, EReal.coe_mul])
  refine ⟨max (Real.sqrt (∑ i, x i * x i)) e, lt_of_lt_of_le he (le_max_right _ _), le_max_left _ _, ?_⟩
  rw [nrm, hsum, Ideal.sqrt_coe, if_neg (not_lt.mpr hS0), hee, coe_max_real]

end Bounds

open Bounds

/-- A real token vector divided by its guarded norm, times a mask value 0 or 1, has real components in `[-1, 1]`:
    `|x d| ≤ √(∑ x²) ≤ max (√(∑ x²)) ε`, and the guard `ε` is positive. -/
theorem dnrm_real_le_one {n : ℕ} (Z : Fin n → Fin 128 → EReal) (z : Fin n → EReal)
    (hZ : ∀ s d, ∃ r : ℝ, Z s d = (r : EReal)) (hz : ∀ s, z s = 0 ∨ z s = 1) (s : Fin n) (d : Fin 128) :
    ∃ r : ℝ, |r| ≤ 1 ∧ dnrm Z z s d = (r : EReal) := by
  choose x hx using hZ
  obtain ⟨m, hm, hle, hnrm⟩ := nrm_real (Z s) (x s) (hx s)
  -- the quotient is the real `x d / m`, of size at most 1 since `|x d| ≤ √(∑ x²) ≤ m`
  have hq : Ideal.div (Z s d) (nrm (Z s)) = ((x s d / m : ℝ) : EReal) := by
    rw [hnrm, Ideal.div_coe hm.ne', hx s d, ← EReal.coe_mul, mul_one_div]
  have hqle : |x s d / m| ≤ 1 := by
    rw [abs_div, abs_of_pos hm, div_le_one hm]
    exact (abs_le_sqrt_sum_sq (x s) d).trans hle
  rcases hz s with h0 | h1
  · exact ⟨0, by simp, by rw [dnrm, h0, mul_zero, EReal.coe_zero]⟩
  · exact ⟨x s d / m, hqle, by rw [dnrm, h1, mul_one, hq]⟩

/-- The inner product of a normalised query token with a document token whose components are reals in `[-1, 1]`
    is a real number of size at most 128. -/
theorem simP_real_le (X : Fin 32 → Fin 128 → EReal) (a : Fin 32 → EReal) (Y : Fin 256 → Fin 128 → EReal)
    (hX : ∀ t d, ∃ r : ℝ, X t d = (r : EReal)) (ha : ∀ t, a t = 0 ∨ a t = 1)
    (hY : ∀ s d, ∃ r : ℝ, |r| ≤ 1 ∧ Y s d = (r : EReal)) (t : Fin 32) (s : Fin 256) :
    ∃ r : ℝ, |r| ≤ 128 ∧ simP X a Y t s = (r : EReal) := by
  choose u hu1 hu using fun d => dnrm_real_le_one X a hX ha t d
  choose v hv1 hv using hY s
  refine ⟨∑ d, u d * v d, ?_, ?_⟩
  · -- each of the 128 products has size at most 1
    calc |∑ d, u d * v d| ≤ ∑ d, |u d * v d| := Finset.abs_sum_le_sum_abs _ _
      _ ≤ ∑ _d : Fin 128, (1 : ℝ) := Finset.sum_le_sum (fun d _ => by
          rw [abs_mul]; exact mul_le_one₀ (hu1 d) (abs_nonneg _) (hv1 d))
      _ = 128 := by simp
  · rw [simP, coe_sum_real]
    exact Finset.sum_congr rfl (fun d _ => by rw [hu d, hv d, EReal.coe_mul])

end Chamfer

end
-- ==== Proof.Core.lean ====
/-
  The heart of the agreement, for one pair of batches: when every similarity is a real number of size at most 128
  and the masks are 0 or 1, hiding a pair of tokens by the kernel's additive penalties or by the reference's
  replacement gives the same kept maxima, hence the same result.
-/
import proofs.«431161_j66718021976303_3_alg».proof.Proof.Spec

noncomputable section

namespace Chamfer

open Idealize.ShloMosaic

/-! ## Finite maxima -/

/-- The finite maximum is the supremum of the family over the whole index set. -/
theorem vmax_eq_sup {n : ℕ} (f : Fin n → EReal) : vmax f = Finset.univ.sup f := rfl

/-- Two finite families that entry by entry either agree above the threshold, or both lie at or below it, have
    maxima with the same validity and the same kept value. If some entry is above the threshold, every entry at or
    below it is dominated by that one in both families, so the two maxima are the maximum of the common entries;
    if none is, both maxima are at or below the threshold, so neither counts. -/
theorem valid_keep_congr {n : ℕ} (f g : Fin n → EReal)
    (h : ∀ i, (f i = g i ∧ thr < g i) ∨ (f i ≤ thr ∧ g i ≤ thr)) :
    valid (vmax f) = valid (vmax g) ∧ keep (vmax f) = keep (vmax g) := by
  by_cases hex : ∃ i, f i = g i ∧ thr < g i
  · obtain ⟨i0, e0, h0⟩ := hex
    have key : vmax f = vmax g := by
      rw [vmax_eq_sup, vmax_eq_sup]
      apply le_antisymm
      · apply Finset.sup_le
        intro i _
        rcases h i with ⟨e, _⟩ | ⟨hf, _⟩
        · rw [e]; exact Finset.le_sup (f := g) (Finset.mem_univ i)
        · calc f i ≤ thr := hf
            _ ≤ g i0 := h0.le
            _ ≤ Finset.univ.sup g := Finset.le_sup (f := g) (Finset.mem_univ i0)
      · apply Finset.sup_le
        intro i _
        rcases h i with ⟨e, _⟩ | ⟨_, hg⟩
        · rw [← e]; exact Finset.le_sup (f := f) (Finset.mem_univ i)
        · calc g i ≤ thr := hg
            _ ≤ g i0 := h0.le
            _ = f i0 := e0.symm
            _ ≤ Finset.univ.sup f := Finset.le_sup (f := f) (Finset.mem_univ i0)
    rw [key]; exact ⟨rfl, rfl⟩
  · have hall : ∀ i, f i ≤ thr ∧ g i ≤ thr := by
      intro i
      rcases h i with hv | hh
      · exact absurd ⟨i, hv⟩ hex
      · exact hh
    have hf : vmax f ≤ thr := by
      rw [vmax_eq_sup]; exact Finset.sup_le (fun i _ => (hall i).1)
    have hg : vmax g ≤ thr := by
      rw [vmax_eq_sup]; exact Finset.sup_le (fun i _ => (hall i).2)
    have vf : valid (vmax f) = 0 := if_neg (not_lt.mpr hf)
    have vg : valid (vmax g) = 0 := if_neg (not_lt.mpr hg)
    refine ⟨vf.trans vg.symm, ?_⟩
    unfold keep
    rw [vf, vg, if_neg (lt_irrefl _), if_neg (lt_irrefl _)]

/-! ## One entry of the two hidden tables -/

/-- At mask value `1` the kernel's penalty vanishes. -/
theorem pen_one : ((1 : EReal) - 1) * big = 0 := by
  have : (1 : EReal) - 1 = 0 := by
    rw [← EReal.coe_one, ← EReal.coe_sub, sub_self, EReal.coe_zero]
  rw [this, zero_mul]

/-- At mask value `0` the kernel's penalty is `-10⁹`. -/
theorem pen_zero : ((0 : EReal) - 1) * big = ((-1000000000 : ℝ) : EReal) := by
  rw [zero_sub, big_eq, neg_mul, one_mul, ← EReal.coe_neg]

/-- A product with a zero mask on the left is not positive. -/
theorem not_pos_zero_mul (x : EReal) : ¬ (0 : EReal) < 0 * x := by
  rw [zero_mul]; exact lt_irrefl _

/-- A product with a zero mask on the right is not positive. -/
theorem not_pos_mul_zero (x : EReal) : ¬ (0 : EReal) < x * 0 := by
  rw [mul_zero]; exact lt_irrefl _

/-- The product of two masks equal to `1` is positive. -/
theorem pos_one_mul_one : (0 : EReal) < 1 * 1 := by
  rw [one_mul]; exact zero_lt_one

/-- The reference's fill is below the threshold. -/
theorem negBig_le_thr : negBig ≤ thr := by
  rw [negBig_eq, thr_eq, EReal.coe_le_coe_iff]; norm_num

/-- A real of size at most 128 is above the threshold. -/
theorem thr_lt_coe {r : ℝ} (h : -128 ≤ r) : thr < (r : EReal) := by
  rw [thr_eq, EReal.coe_lt_coe_iff]; linarith

/-- A real of size at most 128 with one penalty added is below the threshold. -/
theorem coe_pen_le {r : ℝ} (h : r ≤ 128) : (r : EReal) + ((-1000000000 : ℝ) : EReal) ≤ thr := by
  rw [thr_eq, ← EReal.coe_add, EReal.coe_le_coe_iff]; linarith

/-- A real of size at most 128 with both penalties added is below the threshold. -/
theorem coe_pen_pen_le {r : ℝ} (h : r ≤ 128) :
    (r : EReal) + ((-1000000000 : ℝ) : EReal) + ((-1000000000 : ℝ) : EReal) ≤ thr := by
  rw [thr_eq, ← EReal.coe_add, ← EReal.coe_add, EReal.coe_le_coe_iff]; linarith

section
variable (X : Fin 32 → Fin 128 → EReal) (a : Fin 32 → EReal) (Y : Fin 256 → Fin 128 → EReal)
  (b : Fin 256 → EReal)

/-- Entry `(t, s)` of the two tables. If both masks are `1` both entries are the similarity itself, a real above
    the threshold; otherwise the reference's entry is `-10⁹` and the kernel's is the similarity less `10⁹` or less
    `2·10⁹`, both below the threshold. -/
theorem entry_cases (ha : ∀ t, a t = 0 ∨ a t = 1) (hb : ∀ s, b s = 0 ∨ b s = 1)
    (hS : ∀ t s, ∃ r : ℝ, |r| ≤ 128 ∧ simP X a Y t s = (r : EReal)) (t : Fin 32) (s : Fin 256) :
    (mKerP X a Y b t s = mRefP X a Y b t s ∧ thr < mRefP X a Y b t s) ∨
      (mKerP X a Y b t s ≤ thr ∧ mRefP X a Y b t s ≤ thr) := by
  obtain ⟨r, hr, hS'⟩ := hS t s
  obtain ⟨hlo, hhi⟩ := abs_le.mp hr
  unfold mKerP mRefP
  rw [hS']
  rcases ha t with h1 | h1 <;> rcases hb s with h2 | h2 <;> rw [h1, h2]
  · right
    rw [pen_zero, if_neg (not_pos_zero_mul _)]
    exact ⟨coe_pen_pen_le hhi, negBig_le_thr⟩
  · right
    rw [pen_zero, pen_one, add_zero, if_neg (not_pos_zero_mul _)]
    exact ⟨coe_pen_le hhi, negBig_le_thr⟩
  · right
    rw [pen_zero, pen_one, add_zero, if_neg (not_pos_mul_zero _)]
    exact ⟨coe_pen_le hhi, negBig_le_thr⟩
  · left
    rw [pen_one, add_zero, add_zero, if_pos pos_one_mul_one]
    exact ⟨rfl, thr_lt_coe hlo⟩

end

/-- For a pair of batches whose similarities are reals of size at most 128 and whose masks are 0 or 1, the
    kernel's and the reference's results are equal. -/
theorem kerP_eq_refP (X : Fin 32 → Fin 128 → EReal) (a : Fin 32 → EReal) (Y : Fin 256 → Fin 128 → EReal)
    (b : Fin 256 → EReal) (ha : ∀ t, a t = 0 ∨ a t = 1) (hb : ∀ s, b s = 0 ∨ b s = 1)
    (hS : ∀ t s, ∃ r : ℝ, |r| ≤ 128 ∧ simP X a Y t s = (r : EReal)) :
    kerP X a Y b = refP X a Y b := by
  have hrow : ∀ t, valid (vmax fun s => mKerP X a Y b t s) = valid (vmax fun s => mRefP X a Y b t s) ∧
      keep (vmax fun s => mKerP X a Y b t s) = keep (vmax fun s => mRefP X a Y b t s) :=
    fun t => valid_keep_congr _ _ (fun s => entry_cases X a Y b ha hb hS t s)
  have hcol : ∀ s, valid (vmax fun t => mKerP X a Y b t s) = valid (vmax fun t => mRefP X a Y b t s) ∧
      keep (vmax fun t => mKerP X a Y b t s) = keep (vmax fun t => mRefP X a Y b t s) :=
    fun s => valid_keep_congr _ _ (fun t => entry_cases X a Y b ha hb hS t s)
  have e1 : (∑ t, keep (vmax fun s => mKerP X a Y b t s)) = ∑ t, keep (vmax fun s => mRefP X a Y b t s) :=
    Finset.sum_congr rfl (fun t _ => (hrow t).2)
  have e2 : (∑ t, valid (vmax fun s => mKerP X a Y b t s)) = ∑ t, valid (vmax fun s => mRefP X a Y b t s) :=
    Finset.sum_congr rfl (fun t _ => (hrow t).1)
  have e3 : (∑ s, keep (vmax fun t => mKerP X a Y b t s)) = ∑ s, keep (vmax fun t => mRefP X a Y b t s) :=
    Finset.sum_congr rfl (fun s _ => (hcol s).2)
  have e4 : (∑ s, valid (vmax fun t => mKerP X a Y b t s)) = ∑ s, valid (vmax fun t => mRefP X a Y b t s) :=
    Finset.sum_congr rfl (fun s _ => (hcol s).1)
  unfold kerP refP scoreP
  rw [e1, e2, e3, e4, two_eq, half_eq]
  exact (Ideal.div_coe (by norm_num : (2 : ℝ) ≠ 0) _).symm

end Chamfer

end
-- ==== Proof.Agree.lean ====
/-
  The two programs agree on every pair of batches, under the stated domain: real embeddings and masks that are 0 or 1.
-/
import proofs.«431161_j66718021976303_3_alg».proof.Proof.Bounds
import proofs.«431161_j66718021976303_3_alg».proof.Proof.Core

noncomputable section

namespace Chamfer

open Idealize.ShloMosaic

/-- With real embeddings and 0/1 masks every normalised component has size at most 1, every similarity size at most
    128, far inside the `10⁸` that separates hidden from visible entries; so the two results are equal at every pair
    of batches. -/
theorem kerG_eq_refG (Q : Fin 64 → Fin 32 → Fin 128 → EReal) (A : Fin 64 → Fin 32 → EReal)
    (D : Fin 64 → Fin 256 → Fin 128 → EReal) (B : Fin 64 → Fin 256 → EReal)
    (hQ : ∀ q t d, ∃ r : ℝ, Q q t d = (r : EReal)) (hD : ∀ c s d, ∃ r : ℝ, D c s d = (r : EReal))
    (hA : ∀ q t, A q t = 0 ∨ A q t = 1) (hB : ∀ c s, B c s = 0 ∨ B c s = 1) (q c : Fin 64) :
    kerG Q A D B q c = refG Q A D B q c :=
  kerP_eq_refP (Q q) (A q) (dnrm (D c) (B c)) (B q) (hA q) (hB q)
    (simP_real_le (Q q) (A q) (dnrm (D c) (B c)) (hQ q) (hA q) (dnrm_real_le_one (D c) (B c) (hD c) (hB c)))

end Chamfer

end
-- ==== Proof.lean ====
/-
  The certificate of a symmetric max-similarity score between batches of query tokens and batches of document
  tokens: for every query batch `q` and document batch `c`, the mean over query tokens of the best cosine
  similarity to a document token, plus the mean over document tokens of the best similarity to a query token,
  halved; tokens are switched off by two 0/1 masks, and — as the reference is written — a document token `s` is
  hidden by the document mask OF THE QUERY'S BATCH, `(q, s)`.

  The kernel and the reference differ in how they hide a pair of tokens. The reference replaces a hidden
  similarity by `-10⁹`; the kernel adds `(mask - 1) · 10⁹` for each of the two masks, which at a mask value 1 adds
  nothing and at 0 subtracts `10⁹`. Every similarity is an inner product of two vectors whose components have
  size at most 1 (each was divided by its guarded norm), so it lies in `[-128, 128]`: a visible entry stays above
  the threshold `-10⁸` both programs apply to the maxima, a hidden one stays below it on both sides, and a
  maximum that survives the threshold is the maximum of the visible entries, the same number on both sides.
  The counts, sums and quotients that follow are then equal term by term, and the kernel's final `· 1/2` is the
  reference's `/ 2`. This needs the masks to be 0 or 1 (at a mask value 2 the kernel's penalty is `+10⁹`) and the
  embeddings to be real numbers: the stated precondition.

  Frames: the two kernel programs run by the frame of their one region (the body's run through its two-trip
  chunk loop); the reference is a straight line of host operations.
-/
import proofs.«431161_j66718021976303_3_alg».proof.Defs
import proofs.«431161_j66718021976303_3_alg».proof.Proof.Gen.Kernel
import proofs.«431161_j66718021976303_3_alg».proof.Proof.Gen.KernelIdeal
import proofs.«431161_j66718021976303_3_alg».proof.Proof.Gen.ReferenceIdeal
import proofs.«431161_j66718021976303_3_alg».proof.Proof.Gen.Pre_finite_inputs
import proofs.«431161_j66718021976303_3_alg».proof.Proof.BitsFrame
import proofs.«431161_j66718021976303_3_alg».proof.Proof.KerOut
import proofs.«431161_j66718021976303_3_alg».proof.Proof.RefBridge
import proofs.«431161_j66718021976303_3_alg».proof.Proof.RefRunS
import proofs.«431161_j66718021976303_3_alg».proof.Proof.PreFacts
import proofs.«431161_j66718021976303_3_alg».proof.Proof.Agree
import Idealize.ShloMosaic.Adequacy
import Idealize.ShloMosaic.Init

noncomputable section

namespace Cert.Proof

open Idealize.ShloMosaic Idealize.ShloMosaic.TcCoe Idealize.ShloMosaic.ValueIdx Idealize.SL.Sem

attribute [local instance] Cert.Pre_finite_inputs.Gen.facts Cert.Kernel.Gen.facts Cert.KernelIdeal.Gen.facts
  Cert.ReferenceIdeal.Gen.facts

/-- The word-level kernel runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is a line of host operations: it runs, and no operation writes an argument. -/
theorem frame_reference : Cert.frame_ReferenceIdeal := fun m ρ _ =>
  (θ_run Cert.ReferenceIdeal.defs _ _).mono (fun _ h c => (h c).2) (Chamfer.RefRunS.run (F := Ideal) m ρ)

/-- Nothing was rewritten when the kernel was read over the extended reals. -/
theorem preserves : Cert.preserves_Kernel_KernelIdeal := trivial

/-- Both programs end with the same 64 × 64 array: the kernel's run leaves its function of the arguments, the
    reference's run its own, and under the precondition the two functions agree at every entry. -/
theorem algebraic : Cert.algebraic_KernelIdeal_ReferenceIdeal := by
  intro m ρ m' ρ' hpre hagree
  refine ⟨fun c => Chamfer.KerOut.Gout m c, Chamfer.KerOut.run m ρ, ?_⟩
  refine (θ_run Cert.ReferenceIdeal.defs _ _).mono (fun _ h c => ⟨(h c).1.trans ?_, (h c).2⟩)
    (Chamfer.RefRunS.run (F := Ideal) m' ρ')
  rw [(hagree c).1, (hagree c).2.1, (hagree c).2.2.1, (hagree c).2.2.2]
  obtain ⟨hQ, hD, hA, hB⟩ := Chamfer.facts_of_pre _ _ _ _ (hpre c)
  funext i
  obtain ⟨q, cc, rfl⟩ : ∃ (q cc : Fin 64), i = ix2 q cc := ⟨i 0, i 1, eq_ix2 i⟩
  rw [Chamfer.RefBridge.ref_at]
  show _ = Chamfer.KerOut.Gout m c (ix2 q cc)
  rw [Chamfer.KerOut.Gout_at]
  exact (Chamfer.kerG_eq_refG _ _ _ _ hQ hD hA hB q cc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
